-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x1024 .f32) (main_arg1 : FVec F S1000x1024 .f32) (main_arg2 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S16384x1 : Shape := ⟨2, ![16384, 1]⟩
abbrev S16384x1000 : Shape := ⟨2, ![16384, 1000]⟩
abbrev S1024x1 : Shape := ⟨2, ![1024, 1]⟩
abbrev S1024x1000 : Shape := ⟨2, ![1024, 1000]⟩

abbrev nBuf : Space → Nat
  | .hbm => 20
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384, .i32⟩
  | .hbm, ⟨3, _⟩ => ⟨S_, .i32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1, .i32⟩
  | .hbm, ⟨13, _⟩ => ⟨S16384x1000, .f32⟩
  | .hbm, ⟨14, _⟩ => ⟨S16384x1, .f32⟩
  | .hbm, ⟨15, _⟩ => ⟨S16384, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1024x1000, .f32⟩
  | .local _ .vmem, ⟨7, _⟩ => ⟨S1024x1000, .f32⟩
  | .local _ .vmem, ⟨8, _⟩ => ⟨S1024x1, .f32⟩
  | .local _ .vmem, ⟨9, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000x1024_S1024x1024_0240_000 : S1000x1024.Pads (![0, 0] : Fin 2 → Nat) ![24, 0] ![0, 0] S1024x1024
  h_S_ : 0 < S_.numel
  transposes_S1024x1024_S1024x1024_1_0 : S1024x1024.Transposes [1, 0] S1024x1024
  bitsLt_bf16_f32 : FTy.bits .bf16 < FTy.bits .f32
  reducesTo_S1024x1024_S1024_d1 : S1024x1024.ReducesTo [1] S1024
  shapeCasts_S1024_S1x1024 : S1024.ShapeCasts S1x1024
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  slices_S1024x1024_o0_0_S1024x1000 : S1024x1024.Slices ![0, 0] S1024x1000
  inb_S1024x1000_S1024x1000_0_0 : ∀ a, (![0, 0] : Fin 2 → Nat) a + S1024x1000.size a ≤ S1024x1000.size a
  h_S1024x1000 : 0 < S1024x1000.numel
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S16384x1_S16384 : S16384x1.ShapeCasts S16384
  reducesTo_S16384_S_d0 : S16384.ReducesTo [0] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1000.size a ≤ S16384x1000.size a
  hwx0_4 : ∀ i : grid0.Coords, EltTy.bits .f32 = 32 ∨ (Rect.block (s := S16384x1000) S1024x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x1000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩
abbrev S16384x1 : Shape := ⟨2, ![16384, 1]⟩
abbrev S1000 : Shape := ⟨1, ![1000]⟩
abbrev S16384x1000 : Shape := ⟨2, ![16384, 1000]⟩
abbrev S1x1000 : Shape := ⟨2, ![1, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384, .i32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x1024, .f32⟩
  | .hbm, ⟨8, _⟩ => ⟨S_, .f32⟩
  | .hbm, ⟨9, _⟩ => ⟨S1000, .f32⟩
  | .hbm, ⟨10, _⟩ => ⟨S16384x1000, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S16384x1000, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x1000, .f32⟩
  | .hbm, ⟨33, _⟩ => ⟨S16384x1000, .f32⟩
  | .hbm, ⟨34, _⟩ => ⟨S16384x1000, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1, .f32⟩
  | .hbm, ⟨39, _⟩ => ⟨S16384x1000, .f32⟩
  | .hbm, ⟨40, _⟩ => ⟨S16384x1000, .f32⟩
  | .hbm, ⟨41, _⟩ => ⟨S16384x1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S_, .i32⟩
  | .hbm, ⟨46, _⟩ => ⟨S16384x1, .i32⟩
  | .hbm, ⟨47, _⟩ => ⟨S16384x1, .i32⟩
  | .hbm, ⟨48, _⟩ => ⟨S16384x1, .i32⟩
  | .hbm, ⟨49, _⟩ => ⟨S16384x1x1, .i32⟩
  | .hbm, ⟨50, _⟩ => ⟨S1, .i32⟩
  | .hbm, ⟨51, _⟩ => ⟨S_, .i32⟩
  | .hbm, ⟨52, _⟩ => ⟨S16384x1x1, .i32⟩
  | .hbm, ⟨53, _⟩ => ⟨S16384x1x1, .i1⟩
  | .hbm, ⟨54, _⟩ => ⟨S1x1x1, .i32⟩
  | .hbm, ⟨55, _⟩ => ⟨S16384x1x1, .i32⟩
  | .hbm, ⟨56, _⟩ => ⟨S16384x1x1, .i1⟩
  | .hbm, ⟨57, _⟩ => ⟨S16384x1x1, .i1⟩
  | .hbm, ⟨58, _⟩ => ⟨S_, .i1⟩
  | .hbm, ⟨59, _⟩ => ⟨S16384x1, .i1⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩
abbrev main_v19 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_4 : Ref sig .tc := ⟨.hbm, 66, rfl⟩
abbrev main_v23 : Ref sig .tc := ⟨.hbm, 67, rfl⟩
abbrev main_cst_5 : Ref sig .tc := ⟨.hbm, 68, rfl⟩
abbrev main_v24 : Ref sig .tc := ⟨.hbm, 69, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  reducesTo_S16384x1000_S16384_d1 : S16384x1000.ReducesTo [1] S16384
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x1024_S1000x1024_S16384x1000_1_1_0_0_n_n_wf : DotDims.WF S16384x1024 S1000x1024 S16384x1000 [1] [1] [0] [0] [] []
  gather_S16384x1000_S16384x1x1_S16384x1_n_1_0_0_1_2_11_wf : GatherDims.WF S16384x1000 S16384x1x1 S16384x1 [] [1] [0] [1] [0] 2 ![1, 1]

variable [Facts₀]

def dot_S16384x1024_S1000x1024_S16384x1000_1_1_0_0_n_n : DotDims S16384x1024 S1000x1024 S16384x1000 where
  lhsContracting := [1]
  rhsContracting := [1]
  lhsNonContracting := [0]
  rhsNonContracting := [0]
  lhsBatch := []
  rhsBatch := []
  wf := dot_S16384x1024_S1000x1024_S16384x1000_1_1_0_0_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.Spec.lean ====
/-
  Squared distances from each sample to each prototype, their reciprocal scores, and the mean
  cross-entropy of the negated distances against integer labels, as functions on the extended reals.

  For a sample row `b` and a prototype `c` the squared distance is written in its expanded form
  `‖z_b‖² + ‖p_c‖² − 2·⟨z_b, p_c⟩`. The score is `1 / (dist + ε)`. The logits of row `b` are the negated
  distances; their log-softmax is taken with the row's maximum subtracted first, and the loss of row `b`
  is minus the log-probability of its label. The literals `2`, `ε`, `1` stay as the binary words both
  programs carry: no step of the argument needs their values.
-/
import Idealize.ShloMosaic.PureOps.Ideal
import Idealize.ShloMosaic.PureOps.Ideal.Laws
import Idealize.ShloMosaic.Lib.ValueIdx

noncomputable section

namespace Cert.ProtoLoss

open Idealize.ShloMosaic Idealize.ShloMosaic.ValueIdx

/-- Samples: 16384 rows of 1024 features. -/
abbrev SZ : Shape := ⟨2, ![16384, 1024]⟩
/-- Prototypes: 1000 rows of 1024 features. -/
abbrev SP : Shape := ⟨2, ![1000, 1024]⟩
/-- One label per sample. -/
abbrev ST : Shape := ⟨1, ![16384]⟩
/-- One score per sample and prototype. -/
abbrev SC : Shape := ⟨2, ![16384, 1000]⟩

/-- The factor of the cross term, by its word (the number two). -/
def two : EReal := Ideal.ofBits .f32 0x40000000#32
/-- The guard added to a distance before it is inverted, by its word. -/
def eps : EReal := Ideal.ofBits .f32 0x2EDBE6FF#32
/-- The numerator of a score, by its word (the number one). -/
def one : EReal := Ideal.ofBits .f32 0x3F800000#32

/-- The squared norm of row `r` of a matrix with 1024 columns. -/
def sqNorm {n : ℕ} (x : (⟨2, ![n, 1024]⟩ : Shape).Idx → EReal) (r : Fin n) : EReal :=
  ∑ k : Fin 1024, x (ix2 r k) * x (ix2 r k)

/-- The inner product of sample `b` with prototype `c`. -/
def cross (z : SZ.Idx → EReal) (p : SP.Idx → EReal) (b : Fin 16384) (c : Fin 1000) : EReal :=
  ∑ k : Fin 1024, z (ix2 b k) * p (ix2 c k)

/-- The squared distance of sample `b` to prototype `c`, expanded. -/
def dist (z : SZ.Idx → EReal) (p : SP.Idx → EReal) (b : Fin 16384) (c : Fin 1000) : EReal :=
  (sqNorm z b + sqNorm p c) - two * cross z p b c

/-- The classification score: the reciprocal of the guarded distance. -/
def score (z : SZ.Idx → EReal) (p : SP.Idx → EReal) (b : Fin 16384) (c : Fin 1000) : EReal :=
  Ideal.div one (dist z p b c + eps)

/-- The largest logit of row `b`: the maximum of the negated distances, from `-∞`. -/
def rowMax (z : SZ.Idx → EReal) (p : SP.Idx → EReal) (b : Fin 16384) : EReal :=
  (Finset.univ : Finset (Fin 1000)).fold max ⊥ fun c => -dist z p b c

/-- The normaliser of row `b`: the sum of the exponentials of the shifted logits. -/
def sumExp (z : SZ.Idx → EReal) (p : SP.Idx → EReal) (b : Fin 16384) : EReal :=
  ∑ c : Fin 1000, Ideal.exp (-dist z p b c - rowMax z p b)

/-- The log-probability the softmax of row `b` gives prototype `c`. -/
def logProb (z : SZ.Idx → EReal) (p : SP.Idx → EReal) (b : Fin 16384) (c : Fin 1000) : EReal :=
  (-dist z p b c - rowMax z p b) - Ideal.log (sumExp z p b)

/-- The label of sample `b` as a prototype index (a label in range is its own value). -/
def label (t : ST.Idx → BitVec 32) (b : Fin 16384) : Fin 1000 :=
  ⟨(t (ix1 b)).toNat % 1000, Nat.mod_lt _ (by norm_num)⟩

/-- The loss of sample `b`: minus the log-probability of its label. -/
def nll (z : SZ.Idx → EReal) (p : SP.Idx → EReal) (t : ST.Idx → BitVec 32) (b : Fin 16384) : EReal :=
  -logProb z p b (label t b)

/-- The scores as an array. -/
def scoreArr (z : SZ.Idx → EReal) (p : SP.Idx → EReal) : SC.Idx → EReal :=
  fun i => score z p (i 0) (i 1)

/-- The per-sample losses as a vector. -/
def nllVec (z : SZ.Idx → EReal) (p : SP.Idx → EReal) (t : ST.Idx → BitVec 32) : ST.Idx → EReal :=
  fun i => nll z p t (i 0)

/-- Every label lies in the label range `[0, 1000)` (as an unsigned word; a signed word in that range is the same number). -/
def LabelsInRange (t : ST.Idx → BitVec 32) : Prop := ∀ b : Fin 16384, (t (ix1 b)).toNat < 1000

end Cert.ProtoLoss

end
-- ==== Proof.PreLabels.lean ====
/-
  The printed precondition implies that every label lies in the label range.

  The precondition is the conjunction of four statements, each an "and" over a whole array: both float
  inputs are finite, every label is at least zero, every label is below one thousand (the last two as
  signed comparisons of 32-bit words). From the last two, read at the index of sample `b`: the label's
  signed value lies in `[0, 1000)`. A word whose signed value is non-negative has its top bit clear, so its
  signed and unsigned values agree; hence its unsigned value is below one thousand.
-/
import proofs.«423014_j32195074850856_2_alg».proof.Proof.Spec
import proofs.«423014_j32195074850856_2_alg».proof.Pre_finite_inputs
import Idealize.ShloMosaic.Lib.ReduceAll
import Idealize.ShloMosaic.Lib.ValueIdx

noncomputable section

namespace Cert.ProtoLoss

open Idealize.ShloMosaic Idealize.ShloMosaic.ValueIdx

/-- A 32-bit word whose signed value lies in `[0, 1000)` has unsigned value below one thousand: were its
top bit set, its signed value would be negative. -/
theorem toNat_lt_of_signed_range (w : BitVec 32) (h0 : IntOp.cmpi .sge w 0#32 = 1#1)
    (h1 : IntOp.cmpi .slt w 1000#32 = 1#1) : w.toNat < 1000 := by
  have hw : w.toNat < 2 ^ 32 := w.isLt
  have e0 : (0#32 : BitVec 32).sle w = true := by
    cases hb : (0#32 : BitVec 32).sle w with
    | true => rfl
    | false => simp [IntOp.cmpi, hb] at h0
  have e1 : w.slt 1000#32 = true := by
    cases hb : w.slt 1000#32 with
    | true => rfl
    | false => simp [IntOp.cmpi, hb] at h1
  rw [BitVec.sle, decide_eq_true_eq] at e0
  rw [BitVec.slt, decide_eq_true_eq] at e1
  have z0 : (0#32 : BitVec 32).toInt = 0 := by decide
  have z1 : (1000#32 : BitVec 32).toInt = 1000 := by decide
  rw [z0] at e0
  rw [z1] at e1
  rw [BitVec.toInt_eq_toNat_cond] at e0 e1
  split_ifs at e0 e1 with hc <;> omega

/-- The rank-zero shape has one index. -/
instance subsingleton_scalar_idx : Subsingleton Cert.Pre_finite_inputs.S_.Idx :=
  ⟨fun a b => funext fun d => d.elim0⟩

/-- The printed precondition, holding, puts every label in `[0, 1000)`. -/
theorem labels_of_pre [Cert.Pre_finite_inputs.Facts]
    (x0 : FVec Ideal Cert.Pre_finite_inputs.S16384x1024 .f32)
    (x1 : FVec Ideal Cert.Pre_finite_inputs.S1000x1024 .f32)
    (x2 : IVec Cert.Pre_finite_inputs.S16384 32)
    (h : Cert.Pre_finite_inputs.fn (F := Ideal) x0 x1 x2 = fun _ => 1#1) : LabelsInRange x2 := by
  intro b
  have h' := congrFun h ix0
  dsimp only [Cert.Pre_finite_inputs.fn, Cert.Pre_finite_inputs.fn_part1, andi] at h'
  obtain ⟨h123, h4⟩ := IntOp.andi_eq_one.1 h'
  obtain ⟨_, h3⟩ := IntOp.andi_eq_one.1 h123
  have g3 := Host.reduce_andi_all _ _ _ _ _ h3 (ix1 b)
  have g4 := Host.reduce_andi_all _ _ _ _ _ h4 (ix1 b)
  exact toNat_lt_of_signed_range (x2 (ix1 b)) g3 g4

end Cert.ProtoLoss

end
-- ==== Proof.MaskedDefs.lean ====
/-
  One row of the padded softmax, as the 1024-lane computation sees it.

  A row of distances `D` is laid into 1024 lanes, of which the first 1000 are real. A lane's logit is the
  negated distance on a real lane and `-∞` on a padding lane (the lane test is the signed comparison of the
  lane's index word with 1000). The row's maximum, its normaliser and its log-probabilities are taken over
  all 1024 lanes; the loss keeps the lane whose index word equals the label word and sums.
-/
import Idealize.ShloMosaic.PureOps.Ideal
import Idealize.ShloMosaic.PureOps

noncomputable section

namespace Cert.ProtoLoss

open Idealize.ShloMosaic

/-- The logit lane `j` carries: the negated distance below lane 1000, `-∞` from there on. -/
def maskedLogit (D : Fin 1024 → EReal) (j : Fin 1024) : EReal :=
  Scalar.select (IntOp.cmpi .slt (BitVec.ofNat 32 j.val) 1000#32) (0 - D j) ⊥

/-- The maximum over all 1024 lanes, from `-∞`. -/
def maskedMax (D : Fin 1024 → EReal) : EReal :=
  (Finset.univ : Finset (Fin 1024)).fold max ⊥ (maskedLogit D)

/-- The normaliser over all 1024 lanes. -/
def maskedSum (D : Fin 1024 → EReal) : EReal :=
  ∑ j : Fin 1024, Ideal.exp (maskedLogit D j - maskedMax D)

/-- Minus the sum, over all lanes, of the log-probability on the lane whose index is the label `w` and `0` elsewhere. -/
def maskedNll (D : Fin 1024 → EReal) (w : BitVec 32) : EReal :=
  0 - ∑ j : Fin 1024,
    Scalar.select (IntOp.cmpi .eq (BitVec.ofNat 32 j.val) w)
      ((maskedLogit D j - maskedMax D) - Ideal.log (maskedSum D)) 0

end Cert.ProtoLoss

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.IotaLane.lean ====
/-
  The lane index of a 1024 × 1024 tile and the two comparisons made with it.

  The index array along the second axis holds, at row `r` and lane `j`, the 32-bit word of `j`. A lane
  number is below 1024, so its word is small and non-negative: it compares (signed) with the word of one
  thousand as the numbers compare, and it equals a word `w` exactly when `j` is the unsigned value of `w`.
-/
import Idealize.ShloMosaic.PureOps
import Idealize.ShloMosaic.Lib.ValueIdx
import Idealize.ShloMosaic.Lib.StableHlo.Predicate

namespace Cert.ProtoLoss

open Idealize.ShloMosaic Idealize.ShloMosaic.ValueIdx

/-- The index array along the lane axis of a 1024 × 1024 tile reads, at `(r, j)`, the word of `j`. -/
theorem iota_lane_apply (h : (⟨2, ![1024, 1024]⟩ : Shape).Iotas .tc 32 [1]) (r j : Fin 1024) :
    iota .tc (⟨2, ![1024, 1024]⟩ : Shape) 32 [1] h (ix2 r j) = BitVec.ofNat 32 j.val := by
  simp [iota, ix2]

/-- The unsigned value of the word of a lane number is the lane number. -/
theorem toNat_ofNat_lane (j : Fin 1024) : (BitVec.ofNat 32 j.val).toNat = j.val := by
  have := j.isLt
  simp only [BitVec.toNat_ofNat]
  omega

/-- The word of a lane number is below the word of one thousand (signed) exactly when the lane number is
below one thousand. -/
theorem lane_slt_thousand_eq_one (j : Fin 1024) :
    IntOp.cmpi .slt (BitVec.ofNat 32 j.val) 1000#32 = 1#1 ↔ j.val < 1000 := by
  have hj := j.isLt
  have e := StableHlo.Predicate.slt_iff_toNat (a := BitVec.ofNat 32 j.val) (b := 1000#32)
    (by rw [toNat_ofNat_lane]; omega) (by decide)
  rw [e, toNat_ofNat_lane]
  exact Iff.rfl

/-- The negation form: the comparison is `0` exactly when the lane number is at least one thousand. -/
theorem lane_slt_thousand_eq_zero (j : Fin 1024) :
    IntOp.cmpi .slt (BitVec.ofNat 32 j.val) 1000#32 = 0#1 ↔ 1000 ≤ j.val := by
  have h1 := lane_slt_thousand_eq_one j
  have hb : ∀ c : BitVec 1, c = 0#1 ↔ ¬ c = 1#1 := by decide
  rw [hb, h1]
  omega

/-- The word of a lane number equals a word `w` below one thousand exactly when the lane number is the
unsigned value of `w`. -/
theorem lane_eq_label_eq_one (j : Fin 1024) (w : BitVec 32) (hw : w.toNat < 1000) :
    IntOp.cmpi .eq (BitVec.ofNat 32 j.val) w = 1#1 ↔ j.val = w.toNat := by
  rw [StableHlo.Predicate.cmpi_eq_iff]
  constructor
  · intro e
    rw [← e, toNat_ofNat_lane]
  · intro e
    apply BitVec.eq_of_toNat_eq
    rw [toNat_ofNat_lane, e]

/-- The negation form of the equality comparison. -/
theorem lane_eq_label_eq_zero (j : Fin 1024) (w : BitVec 32) (hw : w.toNat < 1000) :
    IntOp.cmpi .eq (BitVec.ofNat 32 j.val) w = 0#1 ↔ j.val ≠ w.toNat := by
  have h1 := lane_eq_label_eq_one j w hw
  have hb : ∀ c : BitVec 1, c = 0#1 ↔ ¬ c = 1#1 := by decide
  rw [hb, h1]

end Cert.ProtoLoss
-- ==== Proof.KernelPay.lean ====
/-
  The kernel body's arithmetic, read entry by entry.

  The body sees a block of 1024 sample rows `x0`, the transposed prototype table `x1` (column `j` is
  prototype `j`), the row `x2` of squared prototype norms and the block's labels `x3`. Entry `(r, j)` of its
  distance tile is `(Σ_k x0[r,k]² + x2[0,j]) − 2 · Σ_k x0[r,k] · x1[k,j]`: a lane sum kept as a column and
  spread over the lanes, a row spread over the rows, and a matrix product into a zero accumulator. The score
  tile is the reciprocal of the guarded distance on the first 1000 lanes; the loss column is the padded-row
  log-softmax of the negated distances, summed against the label's lane.
-/
import proofs.«423014_j32195074850856_2_alg».proof.Proof.Spec
import proofs.«423014_j32195074850856_2_alg».proof.Proof.MaskedDefs
import proofs.«423014_j32195074850856_2_alg».proof.Proof.LibRowCasts
import proofs.«423014_j32195074850856_2_alg».proof.Proof.IotaLane
import proofs.«423014_j32195074850856_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.ProtoLoss.Pay

open Cert.ProtoLoss Cert.KernelIdeal Cert.KernelIdeal.Gen Idealize.ShloMosaic Idealize.ShloMosaic.ValueIdx
  Idealize.ShloMosaic.RowCasts

/-! ## The matrix product at an entry -/

theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product into a zero accumulator, at `(r, j)`: row `r` of the left factor against column `j` of the right. -/
theorem matmul_entry (a b : FVec Ideal S1024x1024 .bf16) (r j : Fin 1024) :
    matmul dot_S1024x1024_S1024x1024_S1024x1024_1_0_0_1_n_n none a b (constant S1024x1024 .f32 0x00000000#32) (ix2 r j)
      = ∑ k : Fin 1024, a (ix2 r k) * b (ix2 k j) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r j) ((ValueIdx.contrEquiv1 dot_S1024x1024_S1024x1024_S1024x1024_1_0_0_1_n_n 1024 rfl rfl).symm k) = ix2 r k :=
    funext fun ax => Fin.ext (by
      match ax with
      | ⟨0, _⟩ => exact lhs_dot_0 _ _
      | ⟨1, _⟩ => exact (lhs_dot_1 _ _).trans hk)
  have er : dot_S1024x1024_S1024x1024_S1024x1024_1_0_0_1_n_n.rhsIdx (ix2 r j) ((ValueIdx.contrEquiv1 dot_S1024x1024_S1024x1024_S1024x1024_1_0_0_1_n_n 1024 rfl rfl).symm k) = ix2 k j :=
    funext fun ax => Fin.ext (by
      match ax with
      | ⟨0, _⟩ => exact (rhs_dot_0 _ _).trans hk
      | ⟨1, _⟩ => exact rhs_dot_1 _ _)
  rw [el, er]

/-! ## A lane sum, kept as a column -/

/-- The coordinate a lane reduction of a `[1024, 1024]` tile inserts at row `r`: `(r, k)`. -/
theorem lift_row (h : S1024x1024.Reduces [1] S1024) (r k : Fin 1024) : h.lift (ix1 r) k = ix2 r k :=
  funext fun ax => Fin.ext (by match ax with | ⟨0, _⟩ => rfl | ⟨1, _⟩ => rfl)

/-- The sum over the lanes of row `r`. -/
theorem laneSum_row (v : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 1024, v (ix2 r k) := by
  refine (Ideal.multiReduction_add_single v _ h hφ hacc (ix1 r)).trans ?_
  exact Finset.sum_congr rfl fun k _ => congrArg v (lift_row h r k)

/-- The maximum over the lanes of row `r`, from `-∞`. -/
theorem laneMax_row (v : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 v 0xFF800000#32 h hφ hacc (ix1 r)
      = (Finset.univ : Finset (Fin 1024)).fold max ⊥ fun k => v (ix2 r k) := by
  refine (Ideal.multiReduction_maximumf_single v _ h hφ hacc (ix1 r)).trans ?_
  have hb : (FloatOps.ofBits (F := Ideal) .f32 0xFF800000#32 : EReal) = ⊥ := by
    simp [Ideal.ofBits, Ideal.ieee]
  rw [hb]
  exact congrArg (fun f => (Finset.univ : Finset (Fin 1024)).fold max ⊥ f) (funext fun k => congrArg v (lift_row h r k))

/-! ## The distance tile -/

/-- Entry `(r, j)` of the distance tile. -/
theorem dist_entry (x0 : Vec Ideal S1024x1024 .f32) (x1 : Vec Ideal S1024x1024 .bf16) (x2 : Vec Ideal S1x1024 .f32)
    (r j : Fin 1024) :
    k0_pay2 (F := Ideal) x0 x1 x2 (ix2 r j)
      = ((∑ k : Fin 1024, x0 (ix2 r k) * x0 (ix2 r k)) + x2 (ix2 (0 : Fin 1) j))
          - two * ∑ k : Fin 1024, x0 (ix2 r k) * x1 (ix2 k j) := by
  unfold k0_pay2
  dsimp only
  show (_ + _) - (_ * _) = _
  refine congrArg₂ (· - ·) (congrArg₂ (· + ·) ?_ ?_) (congrArg₂ (· * ·) rfl ?_)
  · refine (broadcastTo_column_apply _ _ r j).trans ?_
    refine (shapeCast_column_apply _ _ r 0).trans ?_
    exact laneSum_row _ _ _ _ r
  · refine (broadcastTo_1b_ab_apply _ _ r j).trans ?_
    rw [shapeCast_self]
  · refine (matmul_entry _ _ r j).trans ?_
    refine Finset.sum_congr rfl fun k _ => ?_
    rw [shapeCast_self]
    rfl

/-! ## The score tile -/

/-- Entry `(r, c)` of the score tile, `c` one of the 1000 real lanes: the reciprocal of the guarded distance there. -/
theorem score_entry (x0 : Vec Ideal S1024x1024 .f32) (x1 : Vec Ideal S1024x1024 .bf16) (x2 : Vec Ideal S1x1024 .f32)
    (r : Fin 1024) (cc : Fin 1000) :
    k0_pay3 (F := Ideal) x0 x1 x2 (ix2 r cc)
      = Ideal.div one (k0_pay2 (F := Ideal) x0 x1 x2 (ix2 r (Fin.castLE (by norm_num) cc)) + eps) := by
  unfold k0_pay3
  refine (slice2_axis1_apply (n1 := 1024) 0 _ _ r cc (Fin.castLE (by norm_num) cc) (Nat.zero_add _).symm).trans ?_
  rfl

/-! ## The loss column -/

/-- The logarithm of a lane total kept as a column, at `(r, u)`: the logarithm of the total of row `r`. -/
theorem log_column_entry (v : FVec Ideal S1024 .f32) (hc : S1024.ShapeCasts S1024x1) (r : Fin 1024) (u : Fin 1) :
    log (shapeCast S1024x1 v hc) (ix2 r u) = Ideal.log (v (ix1 r)) := by
  show Ideal.log (shapeCast S1024x1 v hc (ix2 r u)) = _
  rw [shapeCast_column_apply]

/-- The exponential of a difference of two tiles, at an entry. -/
theorem exp_sub_entry (a b : FVec Ideal S1024x1024 .f32) (i : S1024x1024.Idx) :
    exp (subf a b) i = Ideal.exp (a i - b i) := rfl

/-- The filler of the padding lanes denotes `-∞`. -/
theorem fill_eq : Named.named (F := Ideal) κ "neg_big" (φ := .f32) 0xF149F2CA#32 = (⊥ : EReal) :=
  IdealRules.named_const.ideal_named_scalar _ _ _ _ rfl

/-- The zero word denotes `0`. -/
theorem zero_word : (FloatOps.ofBits (F := Ideal) .f32 0x00000000#32 : EReal) = 0 := Ideal.ofBits_zero_f32

section Row

variable (x0 : Vec Ideal S1024x1024 .f32) (x1 : Vec Ideal S1024x1024 .bf16) (x2 : Vec Ideal S1x1024 .f32)

/-- Row `r` of the distance tile. -/
abbrev distRow (r : Fin 1024) : Fin 1024 → EReal := fun k => k0_pay2 (F := Ideal) x0 x1 x2 (ix2 r k)

/-- Entry `(r, k)` of the masked logits: the negated distance on a real lane, `-∞` on a padding lane. -/
theorem logit_entry (r k : Fin 1024) :
    k0_pay4 (F := Ideal) x0 x1 x2 (ix2 r k) = maskedLogit (distRow x0 x1 x2 r) k := by
  unfold k0_pay4 maskedLogit
  dsimp only
  show Scalar.select (IntOp.cmpi .slt (iota .tc S1024x1024 32 [1] iota_S1024x1024_d1_w32 (ix2 r k)) 1000#32)
      ((FloatOps.ofBits (F := Ideal) .f32 0x00000000#32 : EReal) - k0_pay2 (F := Ideal) x0 x1 x2 (ix2 r k))
      (Named.named (F := Ideal) κ "neg_big" (φ := .f32) 0xF149F2CA#32) = _
  rw [iota_lane_apply, fill_eq, zero_word]

/-- The row maximum, kept as a column: entry `(r, u)`. -/
theorem max_entry (r : Fin 1024) (u : Fin 1) :
    k0_pay5 (F := Ideal) x0 x1 x2 (ix2 r u) = maskedMax (distRow x0 x1 x2 r) := by
  unfold k0_pay5 maskedMax
  dsimp only
  refine (shapeCast_column_apply _ _ r u).trans ?_
  refine (laneMax_row _ _ _ _ r).trans ?_
  exact congrArg (fun f => (Finset.univ : Finset (Fin 1024)).fold max ⊥ f) (funext fun k => logit_entry x0 x1 x2 r k)

/-- Entry `(r, k)` of the shifted logits. -/
theorem shifted_entry (r k : Fin 1024) :
    k0_pay6 (F := Ideal) x0 x1 x2 (ix2 r k) = maskedLogit (distRow x0 x1 x2 r) k - maskedMax (distRow x0 x1 x2 r) := by
  unfold k0_pay6
  show k0_pay4 (F := Ideal) x0 x1 x2 (ix2 r k) - broadcastTo S1024x1024 (k0_pay5 (F := Ideal) x0 x1 x2) broadcasts_S1024x1_S1024x1024 (ix2 r k) = _
  rw [logit_entry, broadcastTo_column_apply, max_entry]

/-- Entry `(r, k)` of the log-normaliser, spread over the lanes. -/
theorem lognorm_entry (r k : Fin 1024) :
    k0_pay7 (F := Ideal) x0 x1 x2 (ix2 r k) = Ideal.log (maskedSum (distRow x0 x1 x2 r)) := by
  unfold k0_pay7 maskedSum
  dsimp only
  refine (broadcastTo_column_apply _ _ r k).trans ?_
  refine (log_column_entry _ _ r 0).trans ?_
  refine congrArg Ideal.log ?_
  refine (laneSum_row _ _ _ _ r).trans ?_
  refine Finset.sum_congr rfl fun j _ => ?_
  refine (exp_sub_entry _ _ (ix2 r j)).trans ?_
  rw [logit_entry, broadcastTo_column_apply, max_entry]

/-- Entry `(r, u)` of the loss column: the padded-row loss of row `r` at the label word `x3[r, 0]`. -/
theorem nll_entry (x3 : Vec Ideal S1024x1 .i32) (r : Fin 1024) (u : Fin 1) :
    k0_pay1 (F := Ideal) (iota .tc S1024x1024 32 [1] iota_S1024x1024_d1_w32) (k0_pay6 x0 x1 x2) (k0_pay7 x0 x1 x2) x3 (ix2 r u)
      = maskedNll (distRow x0 x1 x2 r) (x3 (ix2 r (0 : Fin 1))) := by
  unfold k0_pay1 maskedNll
  dsimp only
  show (FloatOps.ofBits (F := Ideal) .f32 0x00000000#32 : EReal) - shapeCast S1024x1 _ shapeCasts_S1024_S1024x1 (ix2 r u) = _
  rw [zero_word]
  refine congrArg (0 - ·) ?_
  refine (shapeCast_column_apply _ _ r u).trans ?_
  refine (laneSum_row _ _ _ _ r).trans ?_
  refine Finset.sum_congr rfl fun j _ => ?_
  show Scalar.select (IntOp.cmpi .eq (iota .tc S1024x1024 32 [1] iota_S1024x1024_d1_w32 (ix2 r j))
        (broadcastTo S1024x1024 (shapeCast S1024x1 x3 shapeCasts_S1024x1_S1024x1) broadcasts_S1024x1_S1024x1024 (ix2 r j)))
      (k0_pay6 (F := Ideal) x0 x1 x2 (ix2 r j) - k0_pay7 (F := Ideal) x0 x1 x2 (ix2 r j))
      (0 : EReal) = _
  rw [iota_lane_apply, shifted_entry, lognorm_entry, broadcastTo_column_apply, shapeCast_self]

end Row

end Cert.ProtoLoss.Pay

end
-- ==== Proof.PaddedRow.lean ====
/-
  Three facts about a row that has been padded on the right.

  A row of `n` entries is laid into `N ≥ n` lanes; the lanes past `n` carry a filler. If the filler is
  `-∞` the row's maximum does not see it; if the filler is `0` the row's sum does not see it; and a sum
  that keeps exactly one lane and replaces every other lane by `0` is that lane's entry.
-/
import Mathlib.Data.EReal.Basic
import Mathlib.Algebra.BigOperators.Fin
import Mathlib.Order.Fin.Basic

namespace Cert.ProtoLoss

open Finset

/-- The maximum (from `-∞`) over `N` lanes whose lanes past `n` are `-∞` is the maximum over the first `n`. -/
theorem fold_max_pad {n N : ℕ} (h : n ≤ N) (g : Fin N → EReal) (hpad : ∀ c : Fin N, n ≤ c.val → g c = ⊥) :
    (univ : Finset (Fin N)).fold max ⊥ g = (univ : Finset (Fin n)).fold max ⊥ fun c => g (Fin.castLE h c) := by
  apply le_antisymm
  · refine (Finset.fold_max_le _).mpr ⟨bot_le, fun c _ => ?_⟩
    by_cases hc : c.val < n
    · have : g c = g (Fin.castLE h ⟨c.val, hc⟩) := congrArg g (Fin.ext rfl)
      rw [this]
      exact (Finset.le_fold_max _).mpr (Or.inr ⟨⟨c.val, hc⟩, mem_univ _, le_rfl⟩)
    · rw [hpad c (not_lt.mp hc)]; exact bot_le
  · refine (Finset.fold_max_le _).mpr ⟨bot_le, fun c _ => ?_⟩
    exact (Finset.le_fold_max _).mpr (Or.inr ⟨Fin.castLE h c, mem_univ _, le_rfl⟩)

/-- The sum over `N` lanes whose lanes past `n` are `0` is the sum over the first `n`. -/
theorem sum_pad {M : Type*} [AddCommMonoid M] {n N : ℕ} (h : n ≤ N) (g : Fin N → M)
    (hpad : ∀ c : Fin N, n ≤ c.val → g c = 0) :
    ∑ c : Fin N, g c = ∑ c : Fin n, g (Fin.castLE h c) := by
  have e : ∑ c : Fin n, g (Fin.castLE h c) = ∑ c ∈ univ.map (Fin.castLEEmb h), g c :=
    (Finset.sum_map univ (Fin.castLEEmb h) g).symm
  rw [e]
  symm
  refine Finset.sum_subset (subset_univ _) fun c _ hc => hpad c ?_
  by_contra hlt
  exact hc (mem_map.mpr ⟨⟨c.val, not_le.mp hlt⟩, mem_univ _, Fin.ext rfl⟩)

/-- A sum that keeps lane `j` and puts `0` in every other lane is lane `j`'s entry. -/
theorem sum_pick {M : Type*} [AddCommMonoid M] {N : ℕ} (v : Fin N → M) (keep : Fin N → Prop) [DecidablePred keep]
    (j : Fin N) (hj : ∀ c, keep c ↔ c = j) :
    (∑ c : Fin N, if keep c then v c else 0) = v j := by
  rw [Finset.sum_eq_single j]
  · rw [if_pos ((hj j).mpr rfl)]
  · intro c _ hc; rw [if_neg fun hk => hc ((hj c).mp hk)]
  · intro hn; exact absurd (mem_univ j) hn

end Cert.ProtoLoss
-- ==== Proof.MaskedRow.lean ====
/-
  The row mathematics: a masked 1024-lane log-softmax with a one-lane pick is the specification's loss of a row.

  A row of one thousand squared distances is laid into 1024 lanes (the masked logit, maximum, normaliser and
  loss are the imported definitions). The logit of lane `j` is minus the lane's distance when `j < 1000` and
  `-∞` past it. The `-∞` lanes do not change the row's maximum, and each of them contributes
  `exp(-∞ - M) = exp(-∞) = 0` to the normaliser, so the maximum and the normaliser over the 1024 lanes are
  those over the one thousand prototypes. The final sum keeps only the lane whose number is the label (a label
  below one thousand is its own remainder modulo one thousand), and that lane's entry is the log-probability
  of the label; `0 - x = -x` gives the loss.
-/
import proofs.«423014_j32195074850856_2_alg».proof.Proof.Spec
import proofs.«423014_j32195074850856_2_alg».proof.Proof.PaddedRow
import proofs.«423014_j32195074850856_2_alg».proof.Proof.IotaLane
import proofs.«423014_j32195074850856_2_alg».proof.Proof.MaskedDefs
import Idealize.ShloMosaic.PureOps.Ideal
import Idealize.ShloMosaic.Lib.ValueIdx
import Mathlib.Data.EReal.Operations

noncomputable section

namespace Cert.ProtoLoss

open Idealize.ShloMosaic Idealize.ShloMosaic.ValueIdx

/-- On a lane below one thousand the masked logit is minus the lane's distance. -/
theorem maskedLogit_lt (D : Fin 1024 → EReal) (j : Fin 1024) (hj : j.val < 1000) : maskedLogit D j = -D j := by
  unfold maskedLogit
  rw [(lane_slt_thousand_eq_one j).mpr hj, select_one, zero_sub]

/-- On a lane from one thousand on the masked logit is `-∞`. -/
theorem maskedLogit_ge (D : Fin 1024 → EReal) (j : Fin 1024) (hj : 1000 ≤ j.val) : maskedLogit D j = ⊥ := by
  unfold maskedLogit
  rw [(lane_slt_thousand_eq_zero j).mpr hj, select_zero]

section Row

variable (z : SZ.Idx → EReal) (p : SP.Idx → EReal) (b : Fin 16384) (D : Fin 1024 → EReal)
  (hD : ∀ c : Fin 1000, D (Fin.castLE (by norm_num) c) = dist z p b c)

include hD

/-- The masked maximum over 1024 lanes is the row's maximum over the thousand prototypes. -/
theorem maskedMax_eq : maskedMax D = rowMax z p b := by
  unfold maskedMax rowMax
  rw [fold_max_pad (by norm_num : 1000 ≤ 1024) (maskedLogit D) (fun c hc => maskedLogit_ge D c hc)]
  congr 1
  funext c
  rw [maskedLogit_lt D _ c.isLt, hD]

/-- The masked normaliser over 1024 lanes is the row's normaliser over the thousand prototypes. -/
theorem maskedSum_eq : maskedSum D = sumExp z p b := by
  unfold maskedSum sumExp
  rw [sum_pad (by norm_num : 1000 ≤ 1024) (fun j => Ideal.exp (maskedLogit D j - maskedMax D)) (fun c hc => by
    show Ideal.exp (maskedLogit D c - maskedMax D) = 0
    rw [maskedLogit_ge D c hc, EReal.bot_sub, Ideal.exp_bot])]
  refine Finset.sum_congr rfl fun c _ => ?_
  show Ideal.exp (maskedLogit D (Fin.castLE _ c) - maskedMax D) = _
  rw [maskedLogit_lt D _ c.isLt, hD, maskedMax_eq z p b D hD]

end Row

/-- The masked log-softmax with the pick of the label's lane is the specification's loss of the row. -/
theorem maskedNll_eq (z : SZ.Idx → EReal) (p : SP.Idx → EReal) (t : ST.Idx → BitVec 32) (b : Fin 16384)
    (D : Fin 1024 → EReal) (hD : ∀ c : Fin 1000, D (Fin.castLE (by norm_num) c) = dist z p b c)
    (hw : (t (ix1 b)).toNat < 1000) : maskedNll D (t (ix1 b)) = nll z p t b := by
  have hM := maskedMax_eq z p b D hD
  have hS := maskedSum_eq z p b D hD
  have hlt : (t (ix1 b)).toNat < 1024 := by omega
  have hpick : (∑ j : Fin 1024, Scalar.select (IntOp.cmpi .eq (BitVec.ofNat 32 j.val) (t (ix1 b)))
      ((maskedLogit D j - maskedMax D) - Ideal.log (maskedSum D)) 0)
      = (maskedLogit D ⟨(t (ix1 b)).toNat, hlt⟩ - maskedMax D) - Ideal.log (maskedSum D) := by
    show (∑ j : Fin 1024, if IntOp.cmpi .eq (BitVec.ofNat 32 j.val) (t (ix1 b)) = 1#1
      then (maskedLogit D j - maskedMax D) - Ideal.log (maskedSum D) else 0) = _
    exact sum_pick (fun j => (maskedLogit D j - maskedMax D) - Ideal.log (maskedSum D))
      (fun j : Fin 1024 => IntOp.cmpi .eq (BitVec.ofNat 32 j.val) (t (ix1 b)) = 1#1) ⟨(t (ix1 b)).toNat, hlt⟩
      (fun c => (lane_eq_label_eq_one c (t (ix1 b)) hw).trans ⟨fun e => Fin.ext e, fun e => congrArg Fin.val e⟩)
  have hj0 : (⟨(t (ix1 b)).toNat, hlt⟩ : Fin 1024) = Fin.castLE (by norm_num) (label t b) :=
    Fin.ext (by show (t (ix1 b)).toNat = (t (ix1 b)).toNat % 1000; rw [Nat.mod_eq_of_lt hw])
  unfold maskedNll
  rw [hpick, zero_sub, hj0, maskedLogit_lt D _ (label t b).isLt, hD, hM, hS]
  rfl

end Cert.ProtoLoss

end
-- ==== Proof.KernelHost.lean ====
/-
  The arrays the host code hands to the call, read at an index.

  Before the call the host pads the prototypes with 24 rows below them (1000 rows become 1024), transposes the
  padded matrix, squares it entrywise and sums each row, lays the 1024 row sums out as one row, and lays the
  labels out as one column. Read at an index: the transposed matrix at `(k, j)` is the prototypes' entry
  `(j, k)`, the row of sums at column `j` is the squared norm of prototype `j`, both for `j < 1000` (the
  padded rows are never read by what follows), and the column of labels at row `b` is label `b`.
-/
import proofs.«423014_j32195074850856_2_alg».proof.Proof.Spec
import proofs.«423014_j32195074850856_2_alg».proof.Proof.Gen.KernelIdeal.Frame
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal
import Idealize.ShloMosaic.PureOps.Ideal.Laws

noncomputable section

namespace Cert.ProtoLoss.KernelHost

open Cert.ProtoLoss Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The arrays as the terms of the operations that wrote them -/

/-- The prototypes with 24 rows of the padding value appended below them: a 1024 × 1024 matrix whose first
    1000 rows are the prototypes'. -/
abbrev padded : FVec Ideal S1024x1024 .f32 :=
  pad S1024x1024 ![0, 0] ![24, 0] ![0, 0] (m ((c : Thread nD τ).loc main_arg1) : S1000x1024.Idx → EReal)
    (sitofp (F := Ideal) .f32 (constantI S_ 32 0#32)) pads_S1000x1024_S1024x1024_0240_000 h_S_

/-- The second operand of the call is the padded matrix transposed, its change of format the identity. -/
theorem protoT_term :
    (V (F := Ideal) m c main_v2 : S1024x1024.Idx → EReal)
      = (truncf (F := Ideal) (φ := .f32) .bf16
          (transpose S1024x1024 [1, 0] (padded m c) transposes_S1024x1024_S1024x1024_1_0) bitsLt_bf16_f32 :
          S1024x1024.Idx → EReal) := by
  dsimp only [Gen.V, Gen.V0]
  simp only [Gen.hostOps0, Gen.hostOps0_1, Gen.hostOps0_2, List.flatten_cons, List.flatten_nil, List.append_nil,
    List.cons_append, List.nil_append]
  after_results
  rfl

/-- The third operand is the row sums of the padded matrix's squares, from the zero word, laid out as one row. -/
theorem psq_term :
    (V (F := Ideal) m c main_v5 : S1x1024.Idx → EReal)
      = (shapeCast S1x1024
          (Host.reduceAdd (F := Ideal) (φ := .f32) (mulf (padded m c) (padded m c))
            (constant (F := Ideal) S_ .f32 0x00000000#32) reducesTo_S1024x1024_S1024_d1 h_S_)
          shapeCasts_S1024_S1x1024 : S1x1024.Idx → EReal) := by
  dsimp only [Gen.V, Gen.V0]
  simp only [Gen.hostOps0, Gen.hostOps0_1, Gen.hostOps0_2, List.flatten_cons, List.flatten_nil, List.append_nil,
    List.cons_append, List.nil_append]
  after_results
  rfl

/-- The fourth operand is the labels laid out as one column. -/
theorem tgt_term :
    (V (F := Ideal) m c main_v6 : S16384x1.Idx → BitVec 32)
      = shapeCast S16384x1 (m ((c : Thread nD τ).loc main_arg2) : S16384.Idx → BitVec 32) shapeCasts_S16384_S16384x1 := by
  dsimp only [Gen.V, Gen.V0]
  simp only [Gen.hostOps0, Gen.hostOps0_1, Gen.hostOps0_2, List.flatten_cons, List.flatten_nil, List.append_nil,
    List.cons_append, List.nil_append]
  after_results
  rfl

/-! ## The arrays read at an index -/

/-- Row `j < 1000` of the padded matrix is row `j` of the prototypes: the padding is below, and nothing is
    inserted between entries. -/
theorem padded_apply (j : Fin 1000) (k : Fin 1024) :
    padded m c (ix2 (Fin.castLE (by norm_num) j) k)
      = (m ((c : Thread nD τ).loc main_arg1) : S1000x1024.Idx → EReal) (ix2 j k) :=
  pad_apply_of_inside _ _ _ _ _ _ _ _ (ix2 j k) fun a => match a with
    | ⟨0, _⟩ => by show j.val = 0 + j.val * (0 + 1); omega
    | ⟨1, _⟩ => by show k.val = 0 + k.val * (0 + 1); omega

/-- The transposed prototypes: entry `(k, j)` is the prototypes' entry `(j, k)`, for every real prototype `j`. -/
theorem protoT_apply (k : Fin 1024) (j : Fin 1000) :
    (V (F := Ideal) m c main_v2 : S1024x1024.Idx → EReal) (ix2 k (Fin.castLE (by norm_num) j))
      = (m ((c : Thread nD τ).loc main_arg1) : S1000x1024.Idx → EReal) (ix2 j k) := by
  rw [protoT_term, truncf_apply, transpose_ix2_apply, padded_apply]

/-- The squared norms: column `j` of the one row is the squared norm of prototype `j`, for every real prototype. -/
theorem psq_apply (j : Fin 1000) :
    (V (F := Ideal) m c main_v5 : S1x1024.Idx → EReal) (ix2 (0 : Fin 1) (Fin.castLE (by norm_num) j))
      = sqNorm (m ((c : Thread nD τ).loc main_arg1)) j := by
  have hR : S1024x1024.Reduces [1] S1024 := by decide
  rw [psq_term]
  rw [shapeCast_apply _ _ _ (ix1 (Fin.castLE (by norm_num) j)) (by
    rw [Shape.rowMajor_val_one, Shape.rowMajor_val_two]
    show j.val = 0 * 1024 + j.val
    omega)]
  show Ideal.hostReduceAdd reducesTo_S1024x1024_S1024_d1 (mulf (F := Ideal) (φ := .f32) (padded m c) (padded m c))
      (constant (F := Ideal) S_ .f32 0x00000000#32 (Shape.Idx.first h_S_)) (ix1 (Fin.castLE (by norm_num) j)) = _
  rw [Ideal.hostReduceAdd_single reducesTo_S1024x1024_S1024_d1 hR, constant_apply, Ideal.ofBits_zero_f32, zero_add]
  unfold sqNorm
  refine Finset.sum_congr rfl fun (k : Fin 1024) _ => ?_
  have hl : hR.lift (ix1 (Fin.castLE (by norm_num) j)) k = ix2 (Fin.castLE (by norm_num) j) k :=
    funext fun a => match a with
      | ⟨0, _⟩ => Fin.ext rfl
      | ⟨1, _⟩ => Fin.ext rfl
  rw [hl, mulf_apply, padded_apply]

/-- The labels: row `b` of the one column is label `b`. -/
theorem tgt_apply (b : Fin 16384) :
    (V (F := Ideal) m c main_v6 : S16384x1.Idx → BitVec 32) (ix2 b (0 : Fin 1))
      = (m ((c : Thread nD τ).loc main_arg2) : S16384.Idx → BitVec 32) (ix1 b) := by
  rw [tgt_term]
  exact shapeCast_apply _ _ _ (ix1 b) (by
    rw [Shape.rowMajor_val_one, Shape.rowMajor_val_two]
    show b.val = b.val * 1 + 0
    omega)

end Cert.ProtoLoss.KernelHost

end
-- ==== Proof.KernelArrays.lean ====
/-
  From the body's blocks to the kernel's result arrays and its run.

  The call runs over sixteen grid points. Point `t` is handed rows `t · 1024 … t · 1024 + 1023` of the samples and
  of the labels, and the whole of the transposed prototypes and of their squared norms; it writes back rows
  `t · 1024 …` of the scores and of the per-sample losses. Taking as given what the body computes on one row of
  a block (its distance lanes, its scores, its masked loss), each written block is the restriction of the
  specification's score array, respectively of the column of the specification's losses; the sixteen blocks
  tile each array, so after the call each array is that function. The host then lays the loss column out as a
  vector, sums it and divides by the word of 16384: the run ends with the mean of the specification's losses,
  the scores, and the three arguments as they were launched.
-/
import proofs.«423014_j32195074850856_2_alg».proof.Proof.Spec
import proofs.«423014_j32195074850856_2_alg».proof.Proof.MaskedDefs
import proofs.«423014_j32195074850856_2_alg».proof.Proof.MaskedRow
import proofs.«423014_j32195074850856_2_alg».proof.Proof.KernelHost
import proofs.«423014_j32195074850856_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.Pipeline.FrameSuffix
import Idealize.ShloMosaic.PureOps.Ideal

set_option maxRecDepth 16384

noncomputable section

namespace Cert.ProtoLoss.KernelArrays

open Cert.ProtoLoss Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The index maps, decided over the sixteen grid points -/

/-- The zero offsets of the body's whole-buffer accesses. -/
theorem hz : (![0, 0] : Fin 2 → Nat) = fun _ => 0 := funext fun a => by fin_cases a <;> rfl

/-- Grid point `t` takes block row `t` of the samples, of the labels, of the scores and of the losses, and the one
    block of the transposed prototypes and of their squared norms. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The grid has sixteen points. -/
theorem point_lt (t : Fin cfg0.N) : t.val < 16 := t.isLt

/-- The sample row that row `r` of block `t` is. -/
def rowOf (t : Fin cfg0.N) (r : Fin 1024) : Fin 16384 :=
  ⟨t.val * 1024 + r.val, by have := point_lt t; have := r.isLt; omega⟩

/-! ## One row of a block, from the payloads' readings -/

section Point

variable
  (Hd : ∀ (x0 : Vec Ideal S1024x1024 .f32) (x1 : Vec Ideal S1024x1024 .bf16) (x2 : Vec Ideal S1x1024 .f32)
      (r j : Fin 1024),
    k0_pay2 (F := Ideal) x0 x1 x2 (ix2 r j)
      = ((∑ k : Fin 1024, x0 (ix2 r k) * x0 (ix2 r k)) + x2 (ix2 (0 : Fin 1) j))
        - two * ∑ k : Fin 1024, x0 (ix2 r k) * x1 (ix2 k j))
  (Hs : ∀ (x0 : Vec Ideal S1024x1024 .f32) (x1 : Vec Ideal S1024x1024 .bf16) (x2 : Vec Ideal S1x1024 .f32)
      (r : Fin 1024) (cc : Fin 1000),
    k0_pay3 (F := Ideal) x0 x1 x2 (ix2 r cc)
      = Ideal.div one (k0_pay2 (F := Ideal) x0 x1 x2 (ix2 r (Fin.castLE (by norm_num) cc)) + eps))
  (Hn : ∀ (x0 : Vec Ideal S1024x1024 .f32) (x1 : Vec Ideal S1024x1024 .bf16) (x2 : Vec Ideal S1x1024 .f32)
      (x3 : Vec Ideal S1024x1 .i32) (r : Fin 1024) (u : Fin 1),
    k0_pay1 (F := Ideal) (iota .tc S1024x1024 32 [1] iota_S1024x1024_d1_w32) (k0_pay6 x0 x1 x2) (k0_pay7 x0 x1 x2) x3
        (ix2 r u)
      = maskedNll (fun k => k0_pay2 (F := Ideal) x0 x1 x2 (ix2 r k)) (x3 (ix2 r (0 : Fin 1))))

include Hd in
/-- The distance lane of a real prototype: with row `r` of the first block the sample `b`, the second block the
    transposed prototypes and the third their squared norms, lane `cc` of row `r` is the squared distance. -/
theorem dist_point (x0 : Vec Ideal S1024x1024 .f32) (x1 : Vec Ideal S1024x1024 .bf16) (x2 : Vec Ideal S1x1024 .f32)
    (z : SZ.Idx → EReal) (p : SP.Idx → EReal) (b : Fin 16384) (r : Fin 1024)
    (h0 : ∀ k : Fin 1024, x0 (ix2 r k) = z (ix2 b k))
    (h1 : ∀ (k : Fin 1024) (j : Fin 1000), x1 (ix2 k (Fin.castLE (by norm_num) j)) = p (ix2 j k))
    (h2 : ∀ j : Fin 1000, x2 (ix2 (0 : Fin 1) (Fin.castLE (by norm_num) j)) = sqNorm p j) (cc : Fin 1000) :
    k0_pay2 (F := Ideal) x0 x1 x2 (ix2 r (Fin.castLE (by norm_num) cc)) = dist z p b cc := by
  rw [Hd, h2]
  have e1 : (∑ k : Fin 1024, x0 (ix2 r k) * x0 (ix2 r k)) = sqNorm z b := by
    unfold sqNorm; exact Finset.sum_congr rfl fun k _ => by rw [h0]
  have e2 : (∑ k : Fin 1024, x0 (ix2 r k) * x1 (ix2 k (Fin.castLE (by norm_num) cc))) = cross z p b cc := by
    unfold cross; exact Finset.sum_congr rfl fun k _ => by rw [h0, h1]
  rw [e1, e2]
  rfl

include Hd Hs in
/-- The score of a real prototype. -/
theorem score_point (x0 : Vec Ideal S1024x1024 .f32) (x1 : Vec Ideal S1024x1024 .bf16) (x2 : Vec Ideal S1x1024 .f32)
    (z : SZ.Idx → EReal) (p : SP.Idx → EReal) (b : Fin 16384) (r : Fin 1024)
    (h0 : ∀ k : Fin 1024, x0 (ix2 r k) = z (ix2 b k))
    (h1 : ∀ (k : Fin 1024) (j : Fin 1000), x1 (ix2 k (Fin.castLE (by norm_num) j)) = p (ix2 j k))
    (h2 : ∀ j : Fin 1000, x2 (ix2 (0 : Fin 1) (Fin.castLE (by norm_num) j)) = sqNorm p j) (cc : Fin 1000) :
    k0_pay3 (F := Ideal) x0 x1 x2 (ix2 r cc) = score z p b cc := by
  rw [Hs, dist_point Hd x0 x1 x2 z p b r h0 h1 h2 cc]
  rfl

include Hd Hn in
/-- The loss of a row whose label is in range. -/
theorem nll_point (x0 : Vec Ideal S1024x1024 .f32) (x1 : Vec Ideal S1024x1024 .bf16) (x2 : Vec Ideal S1x1024 .f32)
    (x3 : Vec Ideal S1024x1 .i32) (z : SZ.Idx → EReal) (p : SP.Idx → EReal) (t : ST.Idx → BitVec 32)
    (b : Fin 16384) (r : Fin 1024)
    (h0 : ∀ k : Fin 1024, x0 (ix2 r k) = z (ix2 b k))
    (h1 : ∀ (k : Fin 1024) (j : Fin 1000), x1 (ix2 k (Fin.castLE (by norm_num) j)) = p (ix2 j k))
    (h2 : ∀ j : Fin 1000, x2 (ix2 (0 : Fin 1) (Fin.castLE (by norm_num) j)) = sqNorm p j)
    (h3 : x3 (ix2 r (0 : Fin 1)) = t (ix1 b)) (hw : (t (ix1 b)).toNat < 1000) (u : Fin 1) :
    k0_pay1 (F := Ideal) (iota .tc S1024x1024 32 [1] iota_S1024x1024_d1_w32) (k0_pay6 x0 x1 x2) (k0_pay7 x0 x1 x2) x3
        (ix2 r u) = nll z p t b := by
  rw [Hn, h3]
  exact maskedNll_eq z p t b _ (fun cc => dist_point Hd x0 x1 x2 z p b r h0 h1 h2 cc) hw

end Point

/-! ## The input blocks, read at coordinates -/

/-- The samples, the prototypes and the labels as launched. -/
abbrev zA : SZ.Idx → EReal := m ((c : Thread nD τ).loc main_arg0)
abbrev pA : SP.Idx → EReal := m ((c : Thread nD τ).loc main_arg1)
abbrev tA : ST.Idx → BitVec 32 := m ((c : Thread nD τ).loc main_arg2)

/-- Block `t` of the samples, the one block of the transposed prototypes, the one block of their squared norms,
    and block `t` of the labels, each at its literal type. -/
abbrev xblk (t : Fin cfg0.N) : Vec Ideal S1024x1024 .f32 := iblk m c 0 t
abbrev pblk (t : Fin cfg0.N) : Vec Ideal S1024x1024 .bf16 := iblk m c 1 t
abbrev qblk (t : Fin cfg0.N) : Vec Ideal S1x1024 .f32 := iblk m c 2 t
abbrev lblk (t : Fin cfg0.N) : Vec Ideal S1024x1 .i32 := iblk m c 3 t

/-- Row `r` of block `t` of the samples is sample `t · 1024 + r`. -/
theorem xblk_apply (t : Fin cfg0.N) (r k : Fin 1024) :
    xblk m c t (ix2 r k) = zA m c (ix2 (rowOf t r) k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The block of the transposed prototypes is the whole array: entry `(k, j)` is the prototypes' `(j, k)`. -/
theorem pblk_apply (t : Fin cfg0.N) (k : Fin 1024) (j : Fin 1000) :
    pblk m c t (ix2 k (Fin.castLE (by norm_num) j)) = pA m c (ix2 j k) := by
  obtain ⟨-, -, e0, e1, -⟩ := idx_facts t
  show V m c main_v2 (((cfg0.win 1).blk t).view.emb (ix2 k (Fin.castLE (by norm_num) j))) = _
  refine Eq.trans (congrArg (V m c main_v2) (funext fun a => Fin.ext ?_)) (KernelHost.protoT_apply m c k j)
  match a with
  | ⟨0, _⟩ => show win0_1.index t (0 : Fin 2) * 1024 + 1 * k.val = k.val; omega
  | ⟨1, _⟩ => show win0_1.index t (1 : Fin 2) * 1024 + 1 * j.val = j.val; omega

/-- The block of the squared norms is the whole row: column `j` is the squared norm of prototype `j`. -/
theorem qblk_apply (t : Fin cfg0.N) (j : Fin 1000) :
    qblk m c t (ix2 (0 : Fin 1) (Fin.castLE (by norm_num) j)) = sqNorm (pA m c) j := by
  obtain ⟨-, -, -, -, e0, e1, -⟩ := idx_facts t
  show V m c main_v5 (((cfg0.win 2).blk t).view.emb (ix2 (0 : Fin 1) (Fin.castLE (by norm_num) j))) = _
  refine Eq.trans (congrArg (V m c main_v5) (funext fun a => Fin.ext ?_)) (KernelHost.psq_apply m c j)
  match a with
  | ⟨0, _⟩ => show win0_2.index t (0 : Fin 2) * 1 + 1 * 0 = 0; omega
  | ⟨1, _⟩ => show win0_2.index t (1 : Fin 2) * 1024 + 1 * j.val = j.val; omega

/-- Row `r` of block `t` of the labels is label `t · 1024 + r`. -/
theorem lblk_apply (t : Fin cfg0.N) (r : Fin 1024) :
    lblk m c t (ix2 r (0 : Fin 1)) = tA m c (ix1 (rowOf t r)) := by
  obtain ⟨-, -, -, -, -, -, e0, e1, -⟩ := idx_facts t
  show V m c main_v6 (((cfg0.win 3).blk t).view.emb (ix2 r (0 : Fin 1))) = _
  refine Eq.trans (congrArg (V m c main_v6) (funext fun a => Fin.ext ?_)) (KernelHost.tgt_apply m c (rowOf t r))
  match a with
  | ⟨0, _⟩ => show win0_3.index t (0 : Fin 2) * 1024 + 1 * r.val = t.val * 1024 + r.val; omega
  | ⟨1, _⟩ => show win0_3.index t (1 : Fin 2) * 1 + 1 * 0 = 0; omega

/-! ## The scores: what each point writes back, the cover, the array -/

section Scores

variable
  (Hd : ∀ (x0 : Vec Ideal S1024x1024 .f32) (x1 : Vec Ideal S1024x1024 .bf16) (x2 : Vec Ideal S1x1024 .f32)
      (r j : Fin 1024),
    k0_pay2 (F := Ideal) x0 x1 x2 (ix2 r j)
      = ((∑ k : Fin 1024, x0 (ix2 r k) * x0 (ix2 r k)) + x2 (ix2 (0 : Fin 1) j))
        - two * ∑ k : Fin 1024, x0 (ix2 r k) * x1 (ix2 k j))
  (Hs : ∀ (x0 : Vec Ideal S1024x1024 .f32) (x1 : Vec Ideal S1024x1024 .bf16) (x2 : Vec Ideal S1x1024 .f32)
      (r : Fin 1024) (cc : Fin 1000),
    k0_pay3 (F := Ideal) x0 x1 x2 (ix2 r cc)
      = Ideal.div one (k0_pay2 (F := Ideal) x0 x1 x2 (ix2 r (Fin.castLE (by norm_num) cc)) + eps))

include Hd Hs in
/-- The body's score block at local index `y` is the score array at the index `i` that `y` is in block `t`. -/
theorem score_block (t : Fin cfg0.N) (y : S1024x1000.Idx) (i : SC.Idx)
    (hi0 : (i 0).val = t.val * 1024 + (y 0).val) (hi1 : (i 1).val = (y 1).val) :
    k0_pay3 (F := Ideal) (xblk m c t) (pblk m c t) (qblk m c t) y = scoreArr (zA m c) (pA m c) i := by
  have hb : i 0 = rowOf t (y 0) := Fin.ext hi0
  have hc : i 1 = y 1 := Fin.ext hi1
  show _ = score (zA m c) (pA m c) (i 0) (i 1)
  rw [hb, hc]
  exact (congrArg (k0_pay3 (F := Ideal) (xblk m c t) (pblk m c t) (qblk m c t)) (eq_ix2 y)).trans
    (score_point Hd Hs (xblk m c t) (pblk m c t) (qblk m c t) (zA m c) (pA m c) (rowOf t (y 0)) (y 0)
      (fun k => xblk_apply m c t (y 0) k) (fun k j => pblk_apply m c t k j) (fun j => qblk_apply m c t j) (y 1))

include Hd Hs in
/-- What point `t` writes back to the score array is block `t` of the specification's scores. -/
theorem flushed4_eq (t : Fin cfg0.N) :
    (dats (F := Ideal) m 0 c).flushed 4 t
      = ((cfg0.win 4).blk t).view.read (Elt Ideal) (scoreArr (zA m c) (pA m c)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  obtain ⟨-, -, -, -, -, -, -, -, e0, e1, -⟩ := idx_facts t
  funext y
  show k0_pay3 (F := Ideal) (xblk m c t) (pblk m c t) (qblk m c t) y
    = scoreArr (zA m c) (pA m c) (((cfg0.win 4).blk t).view.emb y)
  refine score_block m c Hd Hs t y _ ?_ ?_
  · show win0_4.index t (0 : Fin 2) * 1024 + 1 * (y 0).val = t.val * 1024 + (y 0).val; omega
  · show win0_4.index t (1 : Fin 2) * 1000 + 1 * (y 1).val = (y 1).val; omega

/-- An index of the score array is in point `t`'s block iff each coordinate is in the block's range. -/
theorem mem_blk4 (t : Fin cfg0.N) (i : S16384x1000.Idx) :
    i ∈ ((cfg0.win 4).blk t).view.set ↔ ∀ a : Fin 2, win0_4.index t a * S1024x1000.size a ≤ (i a).val
      ∧ (i a).val < win0_4.index t a * S1024x1000.size a + S1024x1000.size a := by
  show i ∈ ((View.whole main_v7_0).slice (win0_4.rect t)).set ↔ _
  rw [View.set_slice_whole, Rect.mem_set_unit]
  exact Iff.rfl

/-- Every block row is some point's. -/
theorem idx_onto : ∀ q : Fin 16, ∃ t : Fin cfg0.N, t.val = q.val :=
  fun q => ⟨⟨q.val, q.isLt⟩, rfl⟩

/-- The sixteen blocks of 1024 rows tile the score array. -/
theorem cover4 (i : S16384x1000.Idx) :
    ∃ t : Fin cfg0.N, (cfg0.win 4).flush t = true ∧ i ∈ ((cfg0.win 4).blk t).view.set := by
  have hi0 : (i 0).val < 16384 := (i 0).isLt
  have hi1 : (i 1).val < 1000 := (i 1).isLt
  obtain ⟨t, ht⟩ := idx_onto ⟨(i 0).val / 1024, by omega⟩
  have ht' : t.val = (i 0).val / 1024 := ht
  obtain ⟨-, -, -, -, -, -, -, -, e0, e1, -⟩ := idx_facts t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1000 ≤ (i 1).val ∧ (i 1).val < win0_4.index t (1 : Fin 2) * 1000 + 1000
    omega

include Hd Hs in
/-- The score array after the run is the specification's scores. -/
theorem final4 : (dats (F := Ideal) m 0 c).arrAt 4 cfg0.N = scoreArr (zA m c) (pA m c) :=
  (dats m 0 c).arrAt_eq_of_cover 4 (scoreArr (zA m c) (pA m c)) (fun t _ => flushed4_eq m c Hd Hs t) cover4

end Scores

/-! ## The losses: what each point writes back, the cover, the array -/

section Losses

variable
  (Hd : ∀ (x0 : Vec Ideal S1024x1024 .f32) (x1 : Vec Ideal S1024x1024 .bf16) (x2 : Vec Ideal S1x1024 .f32)
      (r j : Fin 1024),
    k0_pay2 (F := Ideal) x0 x1 x2 (ix2 r j)
      = ((∑ k : Fin 1024, x0 (ix2 r k) * x0 (ix2 r k)) + x2 (ix2 (0 : Fin 1) j))
        - two * ∑ k : Fin 1024, x0 (ix2 r k) * x1 (ix2 k j))
  (Hn : ∀ (x0 : Vec Ideal S1024x1024 .f32) (x1 : Vec Ideal S1024x1024 .bf16) (x2 : Vec Ideal S1x1024 .f32)
      (x3 : Vec Ideal S1024x1 .i32) (r : Fin 1024) (u : Fin 1),
    k0_pay1 (F := Ideal) (iota .tc S1024x1024 32 [1] iota_S1024x1024_d1_w32) (k0_pay6 x0 x1 x2) (k0_pay7 x0 x1 x2) x3
        (ix2 r u)
      = maskedNll (fun k => k0_pay2 (F := Ideal) x0 x1 x2 (ix2 r k)) (x3 (ix2 r (0 : Fin 1))))
  (hlab : LabelsInRange (tA m c))

/-- The per-sample losses as one column. -/
abbrev nllCol : S16384x1.Idx → EReal := fun i => nll (zA m c) (pA m c) (tA m c) (i 0)

include Hd Hn hlab in
/-- The body's loss block at local index `y` is the loss column at the index `i` that `y` is in block `t`. -/
theorem nll_block (t : Fin cfg0.N) (y : S1024x1.Idx) (i : S16384x1.Idx)
    (hi0 : (i 0).val = t.val * 1024 + (y 0).val) :
    k0_pay1 (F := Ideal) (iota .tc S1024x1024 32 [1] iota_S1024x1024_d1_w32)
        (k0_pay6 (xblk m c t) (pblk m c t) (qblk m c t)) (k0_pay7 (xblk m c t) (pblk m c t) (qblk m c t)) (lblk m c t) y
      = nllCol m c i := by
  have hb : i 0 = rowOf t (y 0) := Fin.ext hi0
  show _ = nll (zA m c) (pA m c) (tA m c) (i 0)
  rw [hb]
  exact (congrArg (k0_pay1 (F := Ideal) (iota .tc S1024x1024 32 [1] iota_S1024x1024_d1_w32)
        (k0_pay6 (xblk m c t) (pblk m c t) (qblk m c t)) (k0_pay7 (xblk m c t) (pblk m c t) (qblk m c t)) (lblk m c t))
      (eq_ix2 y)).trans
    (nll_point Hd Hn (xblk m c t) (pblk m c t) (qblk m c t) (lblk m c t) (zA m c) (pA m c) (tA m c) (rowOf t (y 0)) (y 0)
      (fun k => xblk_apply m c t (y 0) k) (fun k j => pblk_apply m c t k j) (fun j => qblk_apply m c t j)
      (lblk_apply m c t (y 0)) (hlab (rowOf t (y 0))) (y 1))

include Hd Hn hlab in
/-- What point `t` writes back to the loss column is block `t` of the specification's losses. -/
theorem flushed5_eq (t : Fin cfg0.N) :
    (dats (F := Ideal) m 0 c).flushed 5 t = ((cfg0.win 5).blk t).view.read (Elt Ideal) (nllCol m c) := by
  show (cfg0.win 5).cut (grid0.coords t) ((dats m 0 c).after 5 t) = _
  rw [after0_5]
  unfold out0_5
  rw [View.canon_unit_zero hz]
  simp only [View.ld_unit_zero (S := S1024x1024) hz, View.ld_unit_zero (S := S1x1024) hz,
    View.ld_unit_zero (S := S1024x1) hz]
  obtain ⟨-, -, -, -, -, -, -, -, -, -, e0, e1⟩ := idx_facts t
  funext y
  show k0_pay1 (F := Ideal) (iota .tc S1024x1024 32 [1] iota_S1024x1024_d1_w32)
      (k0_pay6 (xblk m c t) (pblk m c t) (qblk m c t)) (k0_pay7 (xblk m c t) (pblk m c t) (qblk m c t)) (lblk m c t) y
    = nllCol m c (((cfg0.win 5).blk t).view.emb y)
  refine nll_block m c Hd Hn hlab t y _ ?_
  show win0_5.index t (0 : Fin 2) * 1024 + 1 * (y 0).val = t.val * 1024 + (y 0).val
  omega

/-- An index of the loss column is in point `t`'s block iff each coordinate is in the block's range. -/
theorem mem_blk5 (t : Fin cfg0.N) (i : S16384x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v7_1).slice (win0_5.rect t)).set ↔ _
  rw [View.set_slice_whole, Rect.mem_set_unit]
  exact Iff.rfl

/-- The sixteen blocks of 1024 rows tile the loss column. -/
theorem cover5 (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  obtain ⟨t, ht⟩ := idx_onto ⟨(i 0).val / 1024, by omega⟩
  have ht' : t.val = (i 0).val / 1024 := ht
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

include Hd Hn hlab in
/-- The loss column after the run is the specification's losses. -/
theorem final5 : (dats (F := Ideal) m 0 c).arrAt 5 cfg0.N = nllCol m c :=
  (dats m 0 c).arrAt_eq_of_cover 5 (nllCol m c) (fun t _ => flushed5_eq m c Hd Hn hlab t) cover5

end Losses

/-! ## The host tail and the run -/

/-- The mean of a vector of 16384 losses as the host computes it: their sum from the zero word, divided by the
    word of 16384. -/
def lossOf (v : S16384.Idx → EReal) : S_.Idx → EReal :=
  Host.divf (F := Ideal)
    (Host.reduceAdd (F := Ideal) (φ := .f32) v (constant (F := Ideal) S_ .f32 0x00000000#32) reducesTo_S16384_S_d0 h_S_)
    (constant (F := Ideal) S_ .f32 0x46800000#32)

/-- The loss column laid out as a vector is the specification's loss vector. -/
theorem nllCol_cast :
    (shapeCast S16384 (nllCol m c) shapeCasts_S16384x1_S16384 : S16384.Idx → EReal)
      = nllVec (zA m c) (pA m c) (tA m c) := by
  funext i
  exact shapeCast_apply (s := S16384x1) (t := S16384) (nllCol m c) shapeCasts_S16384x1_S16384 i
    (ix2 (i 0) (0 : Fin 1)) (by
      rw [Shape.rowMajor_val_one, Shape.rowMajor_val_two]
      show (i 0).val * 1 + 0 = (i 0).val
      omega)

section Run

variable
  (Hd : ∀ (x0 : Vec Ideal S1024x1024 .f32) (x1 : Vec Ideal S1024x1024 .bf16) (x2 : Vec Ideal S1x1024 .f32)
      (r j : Fin 1024),
    k0_pay2 (F := Ideal) x0 x1 x2 (ix2 r j)
      = ((∑ k : Fin 1024, x0 (ix2 r k) * x0 (ix2 r k)) + x2 (ix2 (0 : Fin 1) j))
        - two * ∑ k : Fin 1024, x0 (ix2 r k) * x1 (ix2 k j))
  (Hs : ∀ (x0 : Vec Ideal S1024x1024 .f32) (x1 : Vec Ideal S1024x1024 .bf16) (x2 : Vec Ideal S1x1024 .f32)
      (r : Fin 1024) (cc : Fin 1000),
    k0_pay3 (F := Ideal) x0 x1 x2 (ix2 r cc)
      = Ideal.div one (k0_pay2 (F := Ideal) x0 x1 x2 (ix2 r (Fin.castLE (by norm_num) cc)) + eps))
  (Hn : ∀ (x0 : Vec Ideal S1024x1024 .f32) (x1 : Vec Ideal S1024x1024 .bf16) (x2 : Vec Ideal S1x1024 .f32)
      (x3 : Vec Ideal S1024x1 .i32) (r : Fin 1024) (u : Fin 1),
    k0_pay1 (F := Ideal) (iota .tc S1024x1024 32 [1] iota_S1024x1024_d1_w32) (k0_pay6 x0 x1 x2) (k0_pay7 x0 x1 x2) x3
        (ix2 r u)
      = maskedNll (fun k => k0_pay2 (F := Ideal) x0 x1 x2 (ix2 r k)) (x3 (ix2 r (0 : Fin 1))))

include Hd Hn in
/-- The host tail's result: the mean of the specification's losses. -/
theorem tail_v10 (hlab : LabelsInRange (tA m c)) :
    (Pipeline.afterTail₀ cfgs (dats (F := Ideal) m) 0 (V0 m) [hostOps1] c main_v10 : S_.Idx → EReal)
      = lossOf (nllVec (zA m c) (pA m c) (tA m c)) := by
  have hA : (Pipeline.withArrays (cfgs 0).spec c (V0 m c) (fun w => (dats (F := Ideal) m 0 c).arrAt w (cfgs 0).N)
      (Proc.devRef .tc main_v7_1) : S16384x1.Idx → EReal) = nllCol m c :=
    (Pipeline.withArrays_arr spec0 launch0.win.arr_inj c _ _ 5).trans (final5 m c Hd Hn hlab)
  unfold Pipeline.afterTail₀
  show StableHlo.after hostOps1 _ (Proc.devRef .tc main_v10) = _
  after_results
  show lossOf (shapeCast S16384
      (Pipeline.withArrays (cfgs 0).spec c (V0 m c) (fun w => (dats (F := Ideal) m 0 c).arrAt w (cfgs 0).N)
        (Proc.devRef .tc main_v7_1) : S16384x1.Idx → EReal) shapeCasts_S16384x1_S16384) = _
  exact congrArg lossOf ((congrArg (fun a : S16384x1.Idx → EReal => shapeCast S16384 a shapeCasts_S16384x1_S16384) hA).trans
    (nllCol_cast m c))

include Hd Hs Hn in
/-- The kernel's run with every result named: the mean loss, the samples handed back, the scores; and the three
    arguments as launched. -/
theorem run (hlab : ∀ c : Dev nD, LabelsInRange (tA m c)) :
    θ_run defs (onTc (τ := τ) (main (F := Ideal))) ⟨m, fun _ => 0, ρ⟩ fun r => ∀ c : Dev nD,
      r.2.mem ((c.tc : Thread nD τ).loc main_v10) = lossOf (nllVec (zA m c) (pA m c) (tA m c))
      ∧ r.2.mem ((c.tc : Thread nD τ).loc main_arg0) = zA m c
      ∧ r.2.mem ((c.tc : Thread nD τ).loc main_v7_0) = scoreArr (zA m c) (pA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    have h0 : r.2.mem ((c.tc : Thread nD τ).loc main_arg0) = m ((c.tc : Thread nD τ).loc main_arg0) :=
      ((h c).1 0).trans (((dats m 0 c).arrAt_in 0 rfl _).trans ((A_eq m c 0).trans (V_main_arg0 m c)))
    ⟨((h c).2 main_v10 (Pipeline.mem_restRefs_of main_v10 (by decide) (by decide))).trans (tail_v10 m c Hd Hn (hlab c)),
      h0,
      ((h c).1 4).trans (final4 m c Hd Hs),
      h0,
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Run

end Cert.ProtoLoss.KernelArrays

end
-- ==== Proof.RefSide.lean ====
/-
  The reference program computes the specification.

  Read one operation at a time at an index: the squared norms are sums of squares from the zero word, the cross
  term is the inner product, so the distance array is `dist`; the scores are its guarded reciprocals. The
  log-softmax of the negated distances subtracts the row maximum (a fold of `max` from the word of `-∞`), then
  the logarithm of the row's sum of exponentials: it is `logProb`. The pick along the class axis reads, for a
  label in `[0, 1000)`, the entry at the label itself (the label is not negative, so it is not shifted; it is
  at most 999, so the clamp leaves it and the in-range test passes); the reshape and the negation give `nll`.
-/
import proofs.«423014_j32195074850856_2_alg».proof.Proof.Spec
import proofs.«423014_j32195074850856_2_alg».proof.Proof.RefRead
import Idealize.ShloMosaic.PureOps.Reduce
import Idealize.ShloMosaic.PureOps.Ideal.Laws
import Idealize.ShloMosaic.Lib.ValueIdx
import Idealize.ShloMosaic.Lib.StableHlo.Predicate

noncomputable section

namespace Cert.ProtoLoss.Ref

open Cert.ProtoLoss Cert.ReferenceIdeal Cert.ReferenceIdeal.Gen Cert.ReferenceIdeal.Read Idealize.ShloMosaic
  Idealize.ShloMosaic.ValueIdx

/-! ## The distance and the scores -/

/-- The row sums of squares of the samples are their squared norms. -/
theorem v1_at (x0 : SZ.Idx → EReal) (b : Fin 16384) : val_main_v1 (F := Ideal) x0 (ix1 b) = sqNorm x0 b := by
  rw [val_main_v1_apply, val_main_cst_apply, Ideal.ofBits_def, Ideal.ofBits_zero_f32, zero_add]
  unfold sqNorm
  refine Finset.sum_congr rfl fun k _ => ?_
  rw [val_main_v0_apply, Ideal.mulf_def]
  have e : idx_main_v1 (ix1 b) k = ix2 b k :=
    funext fun a => Fin.ext (by match a with | ⟨0, _⟩ => rfl | ⟨1, _⟩ => rfl)
  rw [e]

/-- The row sums of squares of the prototypes are their squared norms. -/
theorem v4_at (x1 : SP.Idx → EReal) (c : Fin 1000) : val_main_v4 (F := Ideal) x1 (ix1 c) = sqNorm x1 c := by
  rw [val_main_v4_apply, val_main_cst_0_apply, Ideal.ofBits_def, Ideal.ofBits_zero_f32, zero_add]
  unfold sqNorm
  refine Finset.sum_congr rfl fun k _ => ?_
  rw [val_main_v3_apply, Ideal.mulf_def]
  have e : idx_main_v4 (ix1 c) k = ix2 c k :=
    funext fun a => Fin.ext (by match a with | ⟨0, _⟩ => rfl | ⟨1, _⟩ => rfl)
  rw [e]

/-- The contraction of the samples with the prototypes is the inner product. -/
theorem v5_at (x0 : SZ.Idx → EReal) (x1 : SP.Idx → EReal) (b : Fin 16384) (c : Fin 1000) :
    val_main_v5 (F := Ideal) x0 x1 (ix2 b c) = cross x0 x1 b c := by
  rw [val_main_v5_apply]
  unfold cross
  refine Finset.sum_congr rfl fun k _ => ?_
  have el : lidx_main_v5 (ix2 b c) k = ix2 b k :=
    funext fun a => Fin.ext (by match a with | ⟨0, _⟩ => rfl | ⟨1, _⟩ => rfl)
  have er : ridx_main_v5 (ix2 b c) k = ix2 c k :=
    funext fun a => Fin.ext (by match a with | ⟨0, _⟩ => rfl | ⟨1, _⟩ => rfl)
  rw [el, er]

/-- The distance array is the specification's squared distance. -/
theorem v12_at (x0 : SZ.Idx → EReal) (x1 : SP.Idx → EReal) (b : Fin 16384) (c : Fin 1000) :
    val_main_v12 (F := Ideal) x0 x1 (ix2 b c) = dist x0 x1 b c := by
  rw [val_main_v12_apply, val_main_v9_apply, val_main_v11_apply, val_main_v7_apply, val_main_v2_apply,
    val_main_v8_apply, val_main_v6_apply, val_main_v10_apply, val_main_cst_1_apply, v5_at]
  have e7 : idx_main_v2 (idx_main_v7 (ix2 b c)) = ix1 b :=
    funext fun a => Fin.ext (by match a with | ⟨0, _⟩ => rfl)
  have e8 : idx_main_v6 (idx_main_v8 (ix2 b c)) = ix1 c :=
    funext fun a => Fin.ext (by match a with | ⟨0, _⟩ => rfl)
  rw [e7, e8, v1_at, v4_at]
  rfl

/-- The score array is the specification's. -/
theorem scores_eq (x0 : SZ.Idx → EReal) (x1 : SP.Idx → EReal) : val_main_v16 (F := Ideal) x0 x1 = scoreArr x0 x1 := by
  refine funext fun (i : SC.Idx) => ?_
  obtain ⟨b, c, rfl⟩ : ∃ (b : Fin 16384) (c : Fin 1000), i = ix2 b c := ⟨i 0, i 1, eq_ix2 i⟩
  rw [val_main_v16_apply, val_main_v15_apply, val_main_cst_3_apply, val_main_v14_apply,
    val_main_v13_apply, val_main_cst_2_apply, v12_at]
  rfl

/-! ## The log-softmax of the negated distances -/

/-- The logits are the negated distances. -/
theorem v17_at (x0 : SZ.Idx → EReal) (x1 : SP.Idx → EReal) (b : Fin 16384) (c : Fin 1000) :
    val_main_v17 (F := Ideal) x0 x1 (ix2 b c) = -dist x0 x1 b c := by
  rw [val_main_v17_apply, v12_at]
  rfl

/-- The word of `-∞`. -/
theorem ofBits_neg_inf : FloatOps.ofBits (F := Ideal) .f32 0xFF800000#32 = (⊥ : EReal) := by
  simp [Ideal.ofBits, Ideal.ieee]

/-- The fold of `max` along the class axis, from `-∞`, is the row maximum. -/
theorem call0_v0_at (x0 : SZ.Idx → EReal) (x1 : SP.Idx → EReal) (b : Fin 16384) :
    val_main_call0_v0 (F := Ideal) x0 x1 (ix1 b) = rowMax x0 x1 b := by
  have hR : S16384x1000.Reduces [1] S16384 := by decide
  unfold val_main_call0_v0
  rw [Host.reduce_eq_fold_single (FloatOps.maximumf (F := Ideal) (φ := .f32)) _ _
    reducesTo_S16384x1000_S16384_d1 hR h_S_ (ix1 b), val_main_call0_cst_apply, ofBits_neg_inf]
  have hf : (val_main_v17 (F := Ideal) x0 x1 ∘ hR.lift (ix1 b)) = fun c : Fin 1000 => -dist x0 x1 b c := by
    refine funext fun (c : Fin 1000) => ?_
    have el : hR.lift (ix1 b) c = ix2 b c :=
      funext fun a => Fin.ext (by match a with | ⟨0, _⟩ => rfl | ⟨1, _⟩ => rfl)
    show val_main_v17 (F := Ideal) x0 x1 (hR.lift (ix1 b) c) = _
    rw [el, v17_at]
  rw [hf]
  rfl

/-- Taking the maximum with `-∞` once more changes nothing. -/
theorem call0_v2_at (x0 : SZ.Idx → EReal) (x1 : SP.Idx → EReal) (b : Fin 16384) :
    val_main_call0_v2 (F := Ideal) x0 x1 (ix1 b) = rowMax x0 x1 b := by
  rw [val_main_call0_v2_apply, val_main_call0_v1_apply, val_main_call0_cst_0_apply, ofBits_neg_inf, call0_v0_at,
    Ideal.maximumf_def]
  exact max_eq_right bot_le

/-- The shifted logits. -/
theorem call0_v5_at (x0 : SZ.Idx → EReal) (x1 : SP.Idx → EReal) (b : Fin 16384) (c : Fin 1000) :
    val_main_call0_v5 (F := Ideal) x0 x1 (ix2 b c) = -dist x0 x1 b c - rowMax x0 x1 b := by
  rw [val_main_call0_v5_apply, val_main_call0_v4_apply, val_main_call0_v3_apply, v17_at]
  have e : idx_main_call0_v3 (idx_main_call0_v4 (ix2 b c)) = ix1 b :=
    funext fun a => Fin.ext (by match a with | ⟨0, _⟩ => rfl)
  rw [e, call0_v2_at]
  rfl

/-- The row sums of the exponentials of the shifted logits are the normalisers. -/
theorem call0_v7_at (x0 : SZ.Idx → EReal) (x1 : SP.Idx → EReal) (b : Fin 16384) :
    val_main_call0_v7 (F := Ideal) x0 x1 (ix1 b) = sumExp x0 x1 b := by
  rw [val_main_call0_v7_apply, val_main_call0_cst_1_apply, Ideal.ofBits_def, Ideal.ofBits_zero_f32, zero_add]
  unfold sumExp
  refine Finset.sum_congr rfl fun k _ => ?_
  have e : idx_main_call0_v7 (ix1 b) k = ix2 b k :=
    funext fun a => Fin.ext (by match a with | ⟨0, _⟩ => rfl | ⟨1, _⟩ => rfl)
  rw [e, val_main_call0_v6_apply, call0_v5_at]
  rfl

/-- The log-softmax array is the specification's log-probability. -/
theorem v18_at (x0 : SZ.Idx → EReal) (x1 : SP.Idx → EReal) (b : Fin 16384) (c : Fin 1000) :
    val_main_v18 (F := Ideal) x0 x1 (ix2 b c) = logProb x0 x1 b c := by
  rw [val_main_v18_apply, val_main_call0_v10_apply, val_main_call0_v9_apply, val_main_call0_v8_apply, call0_v5_at]
  have e : idx_main_call0_v8 (idx_main_call0_v10 (ix2 b c)) = ix1 b :=
    funext fun a => Fin.ext (by match a with | ⟨0, _⟩ => rfl)
  rw [e, call0_v7_at]
  rfl

/-! ## The pick along the class axis -/

/-- A label in range is not below zero as a signed word. -/
theorem slt_zero_of_range {w : BitVec 32} (hw : w.toNat < 1000) : IntOp.cmpi .slt w 0#32 = 0#1 := by
  apply eq_zero_of_ne_one
  intro h1
  have h2 := (StableHlo.Predicate.slt_iff_toNat (a := w) (b := 0#32) (by omega) (by decide)).mp h1
  have h0 : (0#32 : BitVec 32).toNat = 0 := rfl
  rw [h0] at h2
  exact Nat.not_lt_zero _ h2

/-- A label in range is at least zero as a signed word. -/
theorem sge_zero_of_range {w : BitVec 32} (hw : w.toNat < 1000) : IntOp.cmpi .sge w 0#32 = 1#1 :=
  (StableHlo.Predicate.sge_iff_toNat (a := w) (b := 0#32) (by omega) (by decide)).mpr (Nat.zero_le _)

/-- A label in range is at most 999 as a signed word. -/
theorem sle_999_of_range {w : BitVec 32} (hw : w.toNat < 1000) : IntOp.cmpi .sle w 999#32 = 1#1 :=
  (StableHlo.Predicate.sle_iff_toNat (a := w) (b := 999#32) (by omega) (by decide)).mpr
    (by show w.toNat ≤ 999; omega)

/-- A fold of `and` from 1 over bits that are all 1 is 1. -/
theorem fold_andi_ones {ι : Type} (S : Finset ι) (f : ι → BitVec 1) (hf : ∀ k ∈ S, f k = 1#1) :
    S.fold IntOp.andi 1#1 f = 1#1 := by
  induction S using Finset.cons_induction with
  | empty => rfl
  | cons a S ha ih =>
    rw [Finset.fold_cons, hf a (Finset.mem_cons.mpr (Or.inl rfl)),
      ih fun k hk => hf k (Finset.mem_cons.mpr (Or.inr hk))]
    rfl

section Pick

variable (x2 : ST.Idx → BitVec 32)

/-- The label column reads the label of its row. -/
theorem v19_at (i : S16384x1.Idx) : val_main_v19 (F := Ideal) x2 i = x2 (ix1 (i 0)) := by
  rw [val_main_v19_apply]
  exact congrArg x2 (funext fun a => Fin.ext (by match a with | ⟨0, _⟩ => rfl))

/-- A label in range is not shifted. -/
theorem call1_v4_at (i : S16384x1.Idx) (hw : (x2 (ix1 (i 0))).toNat < 1000) :
    val_main_call1_v4 (F := Ideal) x2 i = x2 (ix1 (i 0)) := by
  rw [val_main_call1_v4_apply, val_main_call1_v1_apply, val_main_call1_v0_apply, val_main_call1_c_apply, v19_at,
    slt_zero_of_range hw, select_zero]

/-- The start indices read the label of their row. -/
theorem call1_v5_at (i : S16384x1x1.Idx) (hw : (x2 (ix1 (i 0))).toNat < 1000) :
    val_main_call1_v5 (F := Ideal) x2 i = x2 (ix1 (i 0)) := by
  rw [val_main_call1_v5_apply]
  have e0 : (idx_main_call1_v5 i) 0 = i 0 := Fin.ext (by
    have h1 : (i 1).val < 1 := (i 1).isLt
    have h2 : (i 2).val < 1 := (i 2).isLt
    show (((i 0).val * 1 + (i 1).val) * 1 + (i 2).val) / 1 = (i 0).val
    omega)
  rw [call1_v4_at x2 _ (by rw [e0]; exact hw), e0]

/-- The in-range test of a label in range passes. -/
theorem call1_v11_at (i : S16384x1x1.Idx) (hw : (x2 (ix1 (i 0))).toNat < 1000) :
    val_main_call1_v11 (F := Ideal) x2 i = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_at x2 i hw, sge_zero_of_range hw, sle_999_of_range hw]
  rfl

/-- With every label in range the reduced in-range test is 1 everywhere. -/
theorem call1_v12_at (h : LabelsInRange x2) (j : S16384x1.Idx) : val_main_call1_v12 (F := Ideal) x2 j = 1#1 := by
  unfold val_main_call1_v12
  rw [Host.reduce_eq_fold, val_main_call1_c_3_apply]
  exact fold_andi_ones _ _ fun i _ => call1_v11_at x2 i (h (i 0))

end Pick

/-! ## The gather, the select, the reshape and the negation -/

/-- The gather reads, in row `b`, the entry at the label of row `b`: the row coordinate is the batching
coordinate, the class coordinate is the start index, read signed and clamped into `[0, 999]`. -/
theorem call1_v13_at (x0 : SZ.Idx → EReal) (x1 : SP.Idx → EReal) (x2 : ST.Idx → BitVec 32) (h : LabelsInRange x2)
    (b : Fin 16384) :
    val_main_call1_v13 (F := Ideal) x0 x1 x2 (ix2 b 0)
      = val_main_v18 (F := Ideal) x0 x1 (ix2 b ⟨(x2 (ix1 b)).toNat, h b⟩) := by
  have hb : (x2 (ix1 b)).toNat < 1000 := h b
  -- the row axis: no start, the batching coordinate, no offset
  have s0 : gather_S16384x1000_S16384x1x1_S16384x1_n_1_0_0_1_2_11.start (ix2 b 0) (val_main_call1_v5 (F := Ideal) x2) 0 = 0 :=
    GatherDims.start_batching _ _ _ _ (List.mem_singleton.mpr rfl)
  have o0 : gather_S16384x1000_S16384x1x1_S16384x1_n_1_0_0_1_2_11.offCoord (ix2 b 0) 0 = 0 :=
    GatherDims.offCoord_eq_zero _ _ _ (fun hm => ((GatherDims.mem_sKept _ _).mp hm).2 (List.mem_singleton.mpr rfl))
  have b0 : gather_S16384x1000_S16384x1x1_S16384x1_n_1_0_0_1_2_11.batchCoord (ix2 b 0) 0 = b.val := by
    unfold GatherDims.batchCoord
    rw [dif_pos (show (0 : Fin 2) ∈ gather_S16384x1000_S16384x1x1_S16384x1_n_1_0_0_1_2_11.operandBatchingDims from
      List.mem_singleton.mpr rfl)]
    rfl
  -- the class axis: the clamped start index, no batching coordinate, no offset
  have b1 : gather_S16384x1000_S16384x1x1_S16384x1_n_1_0_0_1_2_11.batchCoord (ix2 b 0) 1 = 0 :=
    GatherDims.batchCoord_eq_zero _ _ _ (fun hm => absurd (List.mem_singleton.mp hm) (by decide))
  have o1 : gather_S16384x1000_S16384x1x1_S16384x1_n_1_0_0_1_2_11.offCoord (ix2 b 0) 1 = 0 :=
    GatherDims.offCoord_eq_zero _ _ _ (fun hm => ((GatherDims.mem_sKept _ _).mp hm).1 (List.mem_singleton.mpr rfl))
  have s1 : gather_S16384x1000_S16384x1x1_S16384x1_n_1_0_0_1_2_11.start (ix2 b 0) (val_main_call1_v5 (F := Ideal) x2) 1
      = (x2 (ix1 b)).toNat := by
    unfold GatherDims.start
    rw [dif_pos (show (1 : Fin 2) ∈ gather_S16384x1000_S16384x1x1_S16384x1_n_1_0_0_1_2_11.startIndexMap from
      List.mem_singleton.mpr rfl)]
    have hsi : gather_S16384x1000_S16384x1x1_S16384x1_n_1_0_0_1_2_11.siIdx (ix2 b 0)
        ⟨List.idxOf (1 : Fin 2) gather_S16384x1000_S16384x1x1_S16384x1_n_1_0_0_1_2_11.startIndexMap,
          List.idxOf_lt_length_iff.2 (List.mem_singleton.mpr rfl)⟩ = ix3 b 0 0 :=
      funext fun c => Fin.ext (by match c with | ⟨0, _⟩ => rfl | ⟨1, _⟩ => rfl | ⟨2, _⟩ => rfl)
    rw [hsi, call1_v5_at x2 (ix3 b 0 0) hb]
    show min (x2 (ix1 b)).toInt.toNat (1000 - 1) = (x2 (ix1 b)).toNat
    rw [StableHlo.Predicate.toInt_eq_toNat_of_lt (by omega), Int.toNat_natCast]
    omega
  unfold val_main_call1_v13 Host.gather
  congr 1
  funext a
  refine Fin.ext ?_
  match a with
  | ⟨0, _⟩ =>
    show gather_S16384x1000_S16384x1x1_S16384x1_n_1_0_0_1_2_11.start (ix2 b 0) (val_main_call1_v5 (F := Ideal) x2) 0
      + gather_S16384x1000_S16384x1x1_S16384x1_n_1_0_0_1_2_11.batchCoord (ix2 b 0) 0
      + gather_S16384x1000_S16384x1x1_S16384x1_n_1_0_0_1_2_11.offCoord (ix2 b 0) 0 = b.val
    rw [s0, b0, o0]
    omega
  | ⟨1, _⟩ =>
    show gather_S16384x1000_S16384x1x1_S16384x1_n_1_0_0_1_2_11.start (ix2 b 0) (val_main_call1_v5 (F := Ideal) x2) 1
      + gather_S16384x1000_S16384x1x1_S16384x1_n_1_0_0_1_2_11.batchCoord (ix2 b 0) 1
      + gather_S16384x1000_S16384x1x1_S16384x1_n_1_0_0_1_2_11.offCoord (ix2 b 0) 1 = (x2 (ix1 b)).toNat
    rw [s1, b1, o1]
    omega

/-- The per-sample loss vector is the specification's. -/
theorem nll_eq (x0 : SZ.Idx → EReal) (x1 : SP.Idx → EReal) (x2 : ST.Idx → BitVec 32) (h : LabelsInRange x2) :
    val_main_v22 (F := Ideal) x0 x1 x2 = nllVec x0 x1 x2 := by
  refine funext fun (i : ST.Idx) => ?_
  obtain ⟨b, rfl⟩ : ∃ b : Fin 16384, i = ix1 b := ⟨i 0, eq_ix1 i⟩
  rw [val_main_v22_apply, val_main_v21_apply]
  have e : idx_main_v21 (ix1 b) = ix2 b 0 := funext fun a => Fin.ext (by
    match a with
    | ⟨0, _⟩ => show b.val / 1 = b.val; omega
    | ⟨1, _⟩ => rfl)
  rw [e, val_main_v20_apply, call1_v12_at x2 h, select_one, call1_v13_at x0 x1 x2 h b, v18_at]
  have hl : (⟨(x2 (ix1 b)).toNat, h b⟩ : Fin 1000) = label x2 b :=
    Fin.ext (by show (x2 (ix1 b)).toNat = (x2 (ix1 b)).toNat % 1000; rw [Nat.mod_eq_of_lt (h b)])
  rw [hl]
  rfl

end Cert.ProtoLoss.Ref

end
-- ==== Proof.RefRunHand.lean ====
/-
  The reference program's run, read back stretch by stretch.

  The program is a straight line of 67 host operations. Its final contents at a buffer are the fold of the
  operations' results over the launch contents. Folding all 67 at once and comparing the outcome with the
  closed term of the loss is expensive, so the line is cut at three places where only a few buffers are live:
  after the distances, scores and logits (23 operations); after the log-softmax of the logits (15 more);
  after the label lookup (23 more); the last six take the mean. Each stretch is folded from an ARBITRARY
  incoming valuation about which only the earlier stretch's results are assumed, stated over the program's
  stages (the value each operation writes, as a function of the argument arrays); the stretches compose by the
  fold of a concatenation.
-/
import proofs.«423014_j32195074850856_2_alg».proof.Proof.RefRead
import Idealize.ShloMosaic.Lib.Pipeline.Frame

noncomputable section

namespace Cert.ProtoLoss.RefRun

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

variable {F : FTy → Type} [FloatOps F]

/-- The line is its four stretches, one after the other. -/
theorem ops_cut : (ops (F := F)) = (ops.take 23) ++ (((ops.drop 23).take 15) ++ ((((ops.drop 23).drop 15).take 23) ++ (((ops.drop 23).drop 15).drop 23))) := by
  rw [List.take_append_drop, List.take_append_drop, List.take_append_drop]

section Stretches

variable (x0 : (⟨S16384x1024, .f32⟩ : BufTy).Contents (Elt F)) (x1 : (⟨S1000x1024, .f32⟩ : BufTy).Contents (Elt F))
  (x2 : (⟨S16384, .i32⟩ : BufTy).Contents (Elt F)) (W : Valuation τ sig (Elt F))

/-- First stretch: from the argument arrays to the logits. -/
theorem stretchA_logits (h0 : W (Proc.devRef .tc main_arg0) = x0) (h1 : W (Proc.devRef .tc main_arg1) = x1) :
    after ((ops (F := F)).take 23) W (Proc.devRef .tc main_v17) = val_main_v17 (F := F) x0 x1 := by
  simp only [ops, List.take_succ_cons, List.take_zero]
  after_results_simp
  simp only [h0, h1]
  rfl

/-- First stretch: the scores. -/
theorem stretchA_scores (h0 : W (Proc.devRef .tc main_arg0) = x0) (h1 : W (Proc.devRef .tc main_arg1) = x1) :
    after ((ops (F := F)).take 23) W (Proc.devRef .tc main_v16) = val_main_v16 (F := F) x0 x1 := by
  simp only [ops, List.take_succ_cons, List.take_zero]
  after_results_simp
  simp only [h0, h1]
  rfl

/-- Second stretch: the log-softmax of the logits. -/
theorem stretchB (h17 : W (Proc.devRef .tc main_v17) = val_main_v17 (F := F) x0 x1) :
    after (((ops (F := F)).drop 23).take 15) W (Proc.devRef .tc main_v18) = val_main_v18 (F := F) x0 x1 := by
  simp only [ops, List.drop_succ_cons, List.drop_zero, List.take_succ_cons, List.take_zero]
  after_results_simp
  simp only [TRef.ofBuf, TRef.toBuf, cast_eq, h17]
  rfl

/-- Third stretch: the log-probability of each sample's label. -/
theorem stretchC (h18 : W (Proc.devRef .tc main_v18) = val_main_v18 (F := F) x0 x1) (h2 : W (Proc.devRef .tc main_arg2) = x2) :
    after ((((ops (F := F)).drop 23).drop 15).take 23) W (Proc.devRef .tc main_v20) = val_main_v20 (F := F) x0 x1 x2 := by
  simp only [ops, List.drop_succ_cons, List.drop_zero, List.take_succ_cons, List.take_zero]
  after_results_simp
  simp only [TRef.ofBuf, TRef.toBuf, cast_eq, h18, h2]
  rfl

/-- Last stretch: the mean of the negated log-probabilities. -/
theorem stretchD (h20 : W (Proc.devRef .tc main_v20) = val_main_v20 (F := F) x0 x1 x2) :
    after ((((ops (F := F)).drop 23).drop 15).drop 23) W (Proc.devRef .tc main_v24) = val_main_v24 (F := F) x0 x1 x2 := by
  simp only [ops, List.drop_succ_cons, List.drop_zero]
  after_results_simp
  simp only [h20]
  rfl

end Stretches

section Kept

variable (W : Valuation τ sig (Elt F))

/-- The first stretch does not write the label array. -/
theorem keepA_labels : after ((ops (F := F)).take 23) W (Proc.devRef .tc main_arg2) = W (Proc.devRef .tc main_arg2) := by
  simp only [ops, List.take_succ_cons, List.take_zero]
  after_results_simp

/-- Nor does the second. -/
theorem keepB_labels : after (((ops (F := F)).drop 23).take 15) W (Proc.devRef .tc main_arg2) = W (Proc.devRef .tc main_arg2) := by
  simp only [ops, List.drop_succ_cons, List.drop_zero, List.take_succ_cons, List.take_zero]
  after_results_simp

end Kept

/-! ## The whole line -/

variable (m : (ℓ : Loc nD τ sig) → Buf (Elt F) ℓ)

/-- The loss buffer after the whole line: the last stage of the argument arrays. -/
theorem fold_loss (c : Dev nD) :
    after (ops (F := F)) (launchContents m c) (Proc.devRef .tc main_v24)
      = val_main_v24 (F := F) (m ((c.tc : Thread nD τ).loc main_arg0)) (m ((c.tc : Thread nD τ).loc main_arg1))
          (m ((c.tc : Thread nD τ).loc main_arg2)) := by
  rw [ops_cut, StableHlo.after_append, StableHlo.after_append, StableHlo.after_append]
  refine stretchD _ _ _ _ (stretchC _ _ _ _ (stretchB _ _ _ (stretchA_logits _ _ _ rfl rfl)) ?_)
  rw [keepB_labels, keepA_labels]

/-- On every device, from any memory with zero counters: every weakly fair execution of the reference terminates with
    the loss and the scores at their stages of the argument arrays, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v24)
        = val_main_v24 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_v16)
        = val_main_v16 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (fold_loss m c),
      (h c main_arg0).trans (by after_results_simp <;> rfl),
      (h c main_v16).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ProtoLoss.RefRun

end
-- ==== Proof.lean ====
/-
  Nearest-prototype scores and cross-entropy loss: the tiled kernel against the plain reference.

  Both programs take samples `z` (16384 × 1024), prototypes `p` (1000 × 1024) and integer labels `t`, and
  return the mean loss, `z` itself, and the scores. For sample `b` and prototype `c` the squared distance is
  `‖z_b‖² + ‖p_c‖² − 2⟨z_b, p_c⟩`, the score is `1 / (dist + ε)`, and the loss of `b` is minus the
  log-softmax of the negated distances of row `b` at the label `t_b`.

  The kernel works on 16 blocks of 1024 samples against a prototype table padded to 1024 rows. Its scores keep
  the first 1000 lanes, where the padding plays no part. Its softmax runs over all 1024 lanes with the 24
  padding lanes filled by a constant that the idealization names `-∞`: the row maximum ignores them, their
  exponentials vanish, and a label in `[0, 1000)` never selects one; so the 1024-lane loss of a row is the
  1000-lane loss of the specification. The reference's lookup of the label's log-probability reads exactly
  that entry when the label is in range. Both programs end with the same mean over the samples.

  The precondition supplies the label range; the finiteness of the float inputs is not used: every step is an
  identity of extended reals.
-/
import proofs.«423014_j32195074850856_2_alg».proof.Defs
import proofs.«423014_j32195074850856_2_alg».proof.Proof.Gen.Kernel
import proofs.«423014_j32195074850856_2_alg».proof.Proof.Gen.Kernel.Skeleton
import proofs.«423014_j32195074850856_2_alg».proof.Proof.Gen.Kernel.Launch
import proofs.«423014_j32195074850856_2_alg».proof.Proof.Gen.Kernel.Points
import proofs.«423014_j32195074850856_2_alg».proof.Proof.Gen.Kernel.Frame
import proofs.«423014_j32195074850856_2_alg».proof.Proof.Gen.KernelIdeal
import proofs.«423014_j32195074850856_2_alg».proof.Proof.Gen.KernelIdeal.Skeleton
import proofs.«423014_j32195074850856_2_alg».proof.Proof.Gen.KernelIdeal.Launch
import proofs.«423014_j32195074850856_2_alg».proof.Proof.Gen.KernelIdeal.Points
import proofs.«423014_j32195074850856_2_alg».proof.Proof.Gen.KernelIdeal.Frame
import proofs.«423014_j32195074850856_2_alg».proof.Proof.Gen.ReferenceIdeal
import proofs.«423014_j32195074850856_2_alg».proof.Proof.Gen.Pre_finite_inputs
import proofs.«423014_j32195074850856_2_alg».proof.Proof.Spec
import proofs.«423014_j32195074850856_2_alg».proof.Proof.PreLabels
import proofs.«423014_j32195074850856_2_alg».proof.Proof.KernelPay
import proofs.«423014_j32195074850856_2_alg».proof.Proof.KernelArrays
import proofs.«423014_j32195074850856_2_alg».proof.Proof.RefSide
import proofs.«423014_j32195074850856_2_alg».proof.Proof.RefRunHand
import Idealize.ShloMosaic.Adequacy
import Idealize.ShloMosaic.Init

noncomputable section

namespace Cert.Proof

open Idealize.ShloMosaic Idealize.ShloMosaic.TcCoe Idealize.SL.Sem Cert.ProtoLoss

/-! ## The three runs -/

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its run read back, with the results dropped. -/
theorem frame_referenceIdeal : Cert.frame_ReferenceIdeal := fun m ρ _ =>
  (θ_run Cert.ReferenceIdeal.defs _ _).mono (fun _ h c => (h c).2.2.2) (Cert.ProtoLoss.RefRun.run (F := Ideal) m ρ)

/-! ## The idealization -/

/-- The one rewrite of the idealization: the filler of the padding lanes, `-1e30` as a word, is named `-∞`. -/
theorem preserves : Cert.preserves_Kernel_KernelIdeal :=
  IdealRules.named_const.statement Cert.KernelIdeal.κ "neg_big" .f32 0xF149F2CA#32 ⊥ rfl

/-! ## The two idealized programs agree -/

/-- The reference's mean loss is the kernel's tail applied to the specification's per-sample losses: the per-sample
    losses are the specification's (for labels in range) and the two tails are the same sum and quotient. -/
theorem ref_loss_eq (x0 : SZ.Idx → EReal) (x1 : SP.Idx → EReal) (x2 : ST.Idx → BitVec 32) (h : LabelsInRange x2) :
    Cert.ReferenceIdeal.Read.val_main_v24 (F := Ideal) x0 x1 x2 = Cert.ProtoLoss.KernelArrays.lossOf (nllVec x0 x1 x2) := by
  unfold Cert.ReferenceIdeal.Read.val_main_v24 Cert.ReferenceIdeal.Read.val_main_v23
  rw [Cert.ProtoLoss.Ref.nll_eq x0 x1 x2 h]
  rfl

theorem algebraic : Cert.algebraic_KernelIdeal_ReferenceIdeal := by
  intro m ρ m' ρ' hpre hagree
  have hlab : ∀ c : Dev Cert.KernelIdeal.nD, LabelsInRange (Cert.ProtoLoss.KernelArrays.tA m c) :=
    fun c => labels_of_pre _ _ _ (hpre c)
  refine ⟨_, _, _, Cert.ProtoLoss.KernelArrays.run m ρ Cert.ProtoLoss.Pay.dist_entry Cert.ProtoLoss.Pay.score_entry
    Cert.ProtoLoss.Pay.nll_entry hlab, ?_⟩
  refine (θ_run Cert.ReferenceIdeal.defs _ _).mono (fun _ h c => ?_) (Cert.ProtoLoss.RefRun.run (F := Ideal) m' ρ')
  obtain ⟨h24, h0, h16, k0, k1, k2⟩ := h c
  obtain ⟨e0, e1, e2⟩ := hagree c
  refine ⟨?_, ?_, ?_, k0, k1, k2⟩
  · rw [h24, e0, e1, e2]
    exact ref_loss_eq _ _ _ (hlab c)
  · rw [h0, e0]
  · rw [h16, e0, e1]
    exact Cert.ProtoLoss.Ref.scores_eq _ _

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
